-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x1x64x64 : Shape := ⟨4, ![32, 1, 64, 64]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S32x256x64x64 .f32) (main_arg1 : IVec S32x1x64x64 1) (main_arg2 : FVec F S256 .f32) (main_arg3 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x256x64x64 : Shape := ⟨4, ![32, 256, 64, 64]⟩
abbrev S32x1x64x64 : Shape := ⟨4, ![32, 1, 64, 64]⟩
abbrev S256 : Shape := ⟨1, ![256]⟩
abbrev S128 : Shape := ⟨1, ![128]⟩
abbrev S1x256x64x64 : Shape := ⟨4, ![1, 256, 64, 64]⟩
abbrev S1x1x64x64 : Shape := ⟨4, ![1, 1, 64, 64]⟩
abbrev S256x64x64 : Shape := ⟨3, ![256, 64, 64]⟩
abbrev S64x64 : Shape := ⟨2, ![64, 64]⟩
abbrev S1x64x64 : Shape := ⟨3, ![1, 64, 64]⟩
abbrev S256x64 : Shape := ⟨2, ![256, 64]⟩
abbrev S64 : Shape := ⟨1, ![64]⟩
abbrev S1x64 : Shape := ⟨2, ![1, 64]⟩
abbrev S1 : Shape := ⟨1, ![1]⟩
abbrev S1x1 : Shape := ⟨2, ![1, 1]⟩
abbrev S_ : Shape := ⟨0, ![]⟩
abbrev S256x1x1 : Shape := ⟨3, ![256, 1, 1]⟩

abbrev nBuf : Space → Nat
  | .hbm => 25
  | .vmem => 18
  | .smem => 0
  | _ => 0

abbrev bufTy : (tb : Table) → Fin (tcTables nBuf tb) → BufTy
  | .hbm, ⟨0, _⟩ => ⟨S32x256x64x64, .f32⟩
  | .hbm, ⟨1, _⟩ => ⟨S32x1x64x64, .i1⟩
  | .hbm, ⟨2, _⟩ => ⟨S256, .f32⟩
  | .hbm, ⟨3, _⟩ => ⟨S256, .f32⟩
  | .hbm, ⟨4, _⟩ => ⟨S32x1x64x64, .i1⟩
  | .hbm, ⟨5, _⟩ => ⟨S32x1x64x64, .f32⟩
  | .hbm, ⟨6, _⟩ => ⟨S256, .f32⟩
  | .hbm, ⟨7, _⟩ => ⟨S256, .f32⟩
  | .hbm, ⟨8, _⟩ => ⟨S128, .f32⟩
  | .hbm, ⟨9, _⟩ => ⟨S1, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S32x256x64x64, .f32⟩
  | .local _ .vmem, ⟨0, _⟩ => ⟨S1x256x64x64, .f32⟩
  | .local _ .vmem, ⟨1, _⟩ => ⟨S1x256x64x64, .f32⟩
  | .local _ .vmem, ⟨2, _⟩ => ⟨S1x1x64x64, .f32⟩
  | .local _ .vmem, ⟨3, _⟩ => ⟨S1x1x64x64, .f32⟩
  | .local _ .vmem, ⟨4, _⟩ => ⟨S256, .f32⟩
  | .local _ .vmem, ⟨5, _⟩ => ⟨S256, .f32⟩
  | .local _ .vmem, ⟨6, _⟩ => ⟨S128, .f32⟩
  | .local _ .vmem, ⟨7, _⟩ => ⟨S256, .f32⟩
  | .local _ .vmem, ⟨8, _⟩ => ⟨S256, .f32⟩
  | .local _ .vmem, ⟨9, _⟩ => ⟨S128, .f32⟩
  | .local _ .vmem, ⟨10, _⟩ => ⟨S1x256x64x64, .f32⟩
  | .local _ .vmem, ⟨11, _⟩ => ⟨S1x256x64x64, .f32⟩
  | .local _ .vmem, ⟨12, _⟩ => ⟨S1x1x64x64, .f32⟩
  | .local _ .vmem, ⟨13, _⟩ => ⟨S1x1x64x64, .f32⟩
  | .local _ .vmem, ⟨14, _⟩ => ⟨S256, .f32⟩
  | .local _ .vmem, ⟨15, _⟩ => ⟨S256, .f32⟩
  | .local _ .vmem, ⟨16, _⟩ => ⟨S1x256x64x64, .f32⟩
  | .local _ .vmem, ⟨17, _⟩ => ⟨S1x256x64x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v37 : BitVec 1 := Scalar.cmpi .eq arg0 c31_i32
  let v38 : BitVec 32 := Scalar.extui v37
  let c0_i32_19 : BitVec 32 := 0#32
  let v39 : BitVec 1 := Scalar.cmpi .ne v38 c0_i32_19
  v39

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x256x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S256_S256_0 : ∀ a, (![0] : Fin 1 → Nat) a + S256.size a ≤ S256.size a
  h_S256 : 0 < S256.numel
  shapeCasts_S256_S256 : S256.ShapeCasts S256
  inb_S128_S128_0 : ∀ a, (![0] : Fin 1 → Nat) a + S128.size a ≤ S128.size a
  h_S128 : 0 < S128.numel
  shapeCasts_S128_S128 : S128.ShapeCasts S128
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S1x1x64x64_S64x64 : S1x1x64x64.ShapeCasts S64x64
  shapeCasts_S64x64_S1x64x64 : S64x64.ShapeCasts S1x64x64
  shapeCasts_S1x64x64_S1x64x64 : S1x64x64.ShapeCasts S1x64x64
  broadcasts_S1x64x64_S256x64x64 : S1x64x64.Broadcasts S256x64x64
  reduces_S256x64x64_S256x64 : S256x64x64.Reduces [2] S256x64
  reduces_S256x64_S256 : S256x64.Reduces [1] S256
  reduces_S64x64_S64 : S64x64.Reduces [1] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  slices_S128_S1_0 : S128.Slices ![0] S1
  shapeCasts_S1_S_ : S1.ShapeCasts S_
  bcast_S_S256 : S_.BroadcastsInDim S256 (![] : Fin 0 → Fin S256.rank)
  shapeCasts_S256_S256x1x1 : S256.ShapeCasts S256x1x1
  shapeCasts_S256x1x1_S256x1x1 : S256x1x1.ShapeCasts S256x1x1
  broadcasts_S256x1x1_S256x64x64 : S256x1x1.Broadcasts S256x64x64
  shapeCasts_S256x64x64_S1x256x64x64 : S256x64x64.ShapeCasts S1x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S32x256x64x64.size a
  hwx0_0 : ∀ i : grid0.Coords, EltTy.bits .f32 = 32 ∨ (Rect.block (s := S32x256x64x64) S1x256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x64.size a ≤ S32x1x64x64.size a
  hwx0_1 : ∀ i : grid0.Coords, EltTy.bits .f32 = 32 ∨ (Rect.block (s := S32x1x64x64) S1x1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64x64.size a ≤ S32x256x64x64.size a
  hwx1_0 : ∀ i : grid1.Coords, EltTy.bits .f32 = 32 ∨ (Rect.block (s := S32x256x64x64) S1x256x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x64.size a ≤ S32x1x64x64.size a
  hwx1_1 : ∀ i : grid1.Coords, EltTy.bits .f32 = 32 ∨ (Rect.block (s := S32x1x64x64) S1x1x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64x64.size a ≤ S32x256x64x64.size a
  hwx1_4 : ∀ i : grid1.Coords, EltTy.bits .f32 = 32 ∨ (Rect.block (s := S32x256x64x64) S1x256x64x64.size (cc1_transform_4 i) (hinb1_4 i)).WholeWords (EltTy.packing .f32)

variable [Facts₀]

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1x256x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x256x64x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S32x1x64x64 : Shape := ⟨4, ![32, 1, 64, 64]⟩
abbrev S256 : Shape := ⟨1, ![256]⟩
abbrev S_ : Shape := ⟨0, ![]⟩
abbrev S1x256x1x1 : Shape := ⟨4, ![1, 256, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x1x64x64, .i1⟩
  | .hbm, ⟨2, _⟩ => ⟨S256, .f32⟩
  | .hbm, ⟨3, _⟩ => ⟨S256, .f32⟩
  | .hbm, ⟨4, _⟩ => ⟨S32x1x64x64, .i1⟩
  | .hbm, ⟨5, _⟩ => ⟨S32x1x64x64, .f32⟩
  | .hbm, ⟨6, _⟩ => ⟨S_, .f32⟩
  | .hbm, ⟨7, _⟩ => ⟨S_, .f32⟩
  | .hbm, ⟨8, _⟩ => ⟨S32x256x64x64, .f32⟩
  | .hbm, ⟨9, _⟩ => ⟨S32x256x64x64, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S1x256x1x1, .f32⟩
  | .hbm, ⟨15, _⟩ => ⟨S32x256x64x64, .f32⟩
  | .hbm, ⟨16, _⟩ => ⟨S32x256x64x64, .f32⟩
  | .hbm, ⟨17, _⟩ => ⟨S32x256x64x64, .f32⟩
  | .hbm, ⟨18, _⟩ => ⟨S32x256x64x64, .f32⟩
  | .hbm, ⟨19, _⟩ => ⟨S32x256x64x64, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S1x256x1x1, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S1x256x1x1, .f32⟩
  | .hbm, ⟨30, _⟩ => ⟨S1x256x1x1, .f32⟩
  | .hbm, ⟨31, _⟩ => ⟨S32x256x64x64, .f32⟩
  | .hbm, ⟨32, _⟩ => ⟨S32x256x64x64, .f32⟩
  | .hbm, ⟨33, _⟩ => ⟨S32x256x64x64, .f32⟩
  | .hbm, ⟨34, _⟩ => ⟨S32x256x64x64, .f32⟩
  | .hbm, ⟨35, _⟩ => ⟨S1x256x1x1, .f32⟩
  | .hbm, ⟨36, _⟩ => ⟨S32x256x64x64, .f32⟩
  | .hbm, ⟨37, _⟩ => ⟨S32x256x64x64, .f32⟩
  | .hbm, ⟨38, _⟩ => ⟨S32x256x64x64, .i1⟩
  | .hbm, ⟨39, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  reducesTo_S32x1x64x64_S_d0_1_2_3 : S32x1x64x64.ReducesTo [0, 1, 2, 3] S_
  h_S_ : 0 < S_.numel
  bcast_S32x1x64x64_S32x256x64x64_0_1_2_3 : S32x1x64x64.BroadcastsInDim S32x256x64x64 (![0, 1, 2, 3] : Fin 4 → Fin S32x256x64x64.rank)
  reducesTo_S32x256x64x64_S256_d0_2_3 : S32x256x64x64.ReducesTo [0, 2, 3] S256
  bcast_S_S256 : S_.BroadcastsInDim S256 (![] : Fin 0 → Fin S256.rank)
  bcast_S256_S1x256x1x1_1 : S256.BroadcastsInDim S1x256x1x1 (![1] : Fin 1 → Fin S1x256x1x1.rank)
  bcast_S1x256x1x1_S32x256x64x64_0_1_2_3 : S1x256x1x1.BroadcastsInDim S32x256x64x64 (![0, 1, 2, 3] : Fin 4 → Fin S32x256x64x64.rank)

variable [Facts₀]

class Facts : Prop extends Facts₀ where

variable [Facts]
-- ==== Proof.K.Data.lean ====
/-
  Proof data of the two kernel regions of the masked batch-norm program, at any float instance.

  Region 0 (the statistics kernel) walks the 32 batch slices.  At every point it adds, per channel, the
  masked sum and the masked sum of squares of the slice to two scratch rows, and the slice's count of kept
  pixels to a third; at the first point the three rows start from zero, at the last point they are copied to
  the three outputs.  What the rows hold after point `n` is therefore a fold over the points `0..n`
  (`accAt`).  Region 1 (the apply kernel) writes, per slice, one pointwise expression of the slice, the
  mask slice and the two per-channel rows (`out1`).
-/
import proofs.«115558_j17076789969318_1_alg».proof.Proof.Gen.Kernel.Launch
import proofs.«115558_j17076789969318_1_alg».proof.Proof.Gen.Kernel.Skeleton
import proofs.«115558_j17076789969318_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: the statistics kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The batch slice of the data and of the keep-mask at point `t`, at their literal types. -/
abbrev xb0 (c : Dev nD) (t : Fin cfg0.N) : Vec F S1x256x64x64 .f32 := iblk0 V c 0 t
abbrev nb0 (c : Dev nD) (t : Fin cfg0.N) : Vec F S1x1x64x64 .f32 := iblk0 V c 1 t

/-- The three scratch rows: per-channel sum, per-channel sum of squares, the count (in every lane). -/
abbrev Rows (F : FTy → Type) [FloatOps F] : Type := Vec F S256 .f32 × Vec F S256 .f32 × Vec F S128 .f32

/-- The rows before anything is added: zeros. -/
def zero0 : Rows F := (k0_pay2 (F := F), k0_pay3 (F := F), k0_pay4 (F := F))

/-- One point's update of the rows from the point's slices. -/
def step0 (x : Vec F S1x256x64x64 .f32) (n : Vec F S1x1x64x64 .f32) (s : Rows F) : Rows F :=
  (k0_pay8 x n s.1, k0_pay9 x n s.2.1, k0_pay1 (k0_pay10 n s.2.2))

/-- The rows after point `n`: the fold of `step0` over the points up to `n`, from zero. -/
def accAt (c : Dev nD) : (n : ℕ) → n < cfg0.N → Rows F
  | 0, h => step0 (xb0 V c ⟨0, h⟩) (nb0 V c ⟨0, h⟩) zero0
  | n + 1, h => step0 (xb0 V c ⟨n + 1, h⟩) (nb0 V c ⟨n + 1, h⟩) (accAt c n (Nat.lt_of_succ_lt h))

theorem accAt_zero (c : Dev nD) (h : 0 < cfg0.N) :
    accAt V c 0 h = step0 (xb0 V c ⟨0, h⟩) (nb0 V c ⟨0, h⟩) zero0 := rfl

theorem accAt_succ (c : Dev nD) (n : ℕ) (h : n + 1 < cfg0.N) :
    accAt V c (n + 1) h = step0 (xb0 V c ⟨n + 1, h⟩) (nb0 V c ⟨n + 1, h⟩) (accAt V c n (Nat.lt_of_succ_lt h)) := rfl

/-- The scratch rows as memrefs. -/
abbrev sc0 : Memref sig .tc .vmem S256 .f32 := Memref.whole cc0_scratch0
abbrev sc1 : Memref sig .tc .vmem S256 .f32 := Memref.whole cc0_scratch1
abbrev sc2 : Memref sig .tc .vmem S128 .f32 := Memref.whole cc0_scratch2

/-- The scoped buffers of the core that region 0 neither stages nor uses as scratch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's invariant before point `n`: before the first point every scratch row at anything; afterwards
    the rows at what the fold has reached; beside them the other scoped buffers and the generator register. -/
def PhiS (c : Dev nD) : (n : ℕ) → n ≤ cfg0.N → sProp 𝕄
  | 0, _ => Pipeline.ΦA spec0 c
  | n + 1, hn => iprop(owns (c : Thread nD τ) sc0 fullShare (accAt V c n hn).1
      ∗ owns (c : Thread nD τ) sc1 fullShare (accAt V c n hn).2.1
      ∗ owns (c : Thread nD τ) sc2 fullShare (accAt V c n hn).2.2
      ∗ rest0 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) sc0 fullShare (accAt V c n hn).1
      ∗ owns (c : Thread nD τ) sc1 fullShare (accAt V c n hn).2.1
      ∗ owns (c : Thread nD τ) sc2 fullShare (accAt V c n hn).2.2
      ∗ rest0 c ∗ (∃ r, prngReg c r)) := rfl

theorem PhiS_pos (c : Dev nD) (n : ℕ) (h : n ≤ cfg0.N) (hz : n ≠ 0) :
    PhiS V c n h = iprop(owns (c : Thread nD τ) sc0 fullShare (accAt V c (n - 1) (by omega)).1
      ∗ owns (c : Thread nD τ) sc1 fullShare (accAt V c (n - 1) (by omega)).2.1
      ∗ owns (c : Thread nD τ) sc2 fullShare (accAt V c (n - 1) (by omega)).2.2
      ∗ rest0 c ∗ (∃ r, prngReg c r)) := by
  cases n with
  | zero => exact absurd rfl hz
  | succ n => rfl

/-- The proof data of region 0: the arrays as the region finds them; after the body each input's buffer at
    its slice and each output's at the matching scratch row (read only at the last point, where the body copies
    the rows out; elsewhere the outputs are idle); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt V c t.val t.isLt).1
    | ⟨3, _⟩ => (accAt V c t.val t.isLt).2.1
    | ⟨4, _⟩ => (accAt V c t.val t.isLt).2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt V c t.val t.isLt).1 := by dsimp only [dat0]
theorem after0_3 (c : Dev nD) (t : Fin cfg0.N) : (dat0 V c).after 3 t = (accAt V c t.val t.isLt).2.1 := by dsimp only [dat0]
theorem after0_4 (c : Dev nD) (t : Fin cfg0.N) : (dat0 V c).after 4 t = (accAt V c t.val t.isLt).2.2 := by dsimp only [dat0]

theorem Phi0_castSucc (c : Dev nD) (t : Fin cfg0.N) :
    (dat0 V c).Φ t.castSucc = PhiS V c t.val (Nat.le_of_lt t.isLt) := by
  dsimp only [dat0]; simp only [Fin.coe_castSucc]

/-! ## Region 1: the apply kernel -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangle of the output slice. -/
abbrev r1 : Rect S1x256x64x64 := Rect.unit (s := S1x256x64x64) ![0, 0, 0, 0] S1x256x64x64.size inb_S1x256x64x64_S1x256x64x64_0_0_0_0
abbrev r1m : Rect S1x1x64x64 := Rect.unit (s := S1x1x64x64) ![0, 0, 0, 0] S1x1x64x64.size inb_S1x1x64x64_S1x1x64x64_0_0_0_0
abbrev r1c : Rect S256 := Rect.unit (s := S256) ![0] S256.size inb_S256_S256_0

/-- What the body leaves in the output slice's buffer: its one store, of the pointwise expression of the four
    input blocks. -/
def out1 (x : Vec F S1x256x64x64 .f32) (n : Vec F S1x1x64x64 .f32) (a : Vec F S256 .f32) (b : Vec F S256 .f32) : Vec F S1x256x64x64 .f32 :=
  View.canon [⟨r1, k1_pay1 (View.ld x r1) (View.ld n r1m) (View.ld a r1c) (View.ld b r1c)⟩]

/-- The proof data of region 1: the arrays as the region finds them; after the body each input's buffer at its
    block and the output's at `out1` of the input blocks; the invariant untouched scoped buffers and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

end Cert.Kernel.H

end
-- ==== Proof.K.Fold.lean ====
/-
  The buffer contents at each boundary between the four items of @main — two host operations, the statistics
  region, fifteen host operations, the apply region — as a fold from the launch memory: a host stretch applies
  its operations; a region leaves its input arrays as entered and each output array at what its write-backs
  leave.  Each argument array reaches the end as launched, since no item writes one.
-/
import proofs.«115558_j17076789969318_1_alg».proof.Proof.K.Data

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- No operation of either host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A buffer neither host stretch writes and no region's output: through a host stretch. -/
theorem W1_keep (c : Dev nD) (b : Ref sig .tc) (hb : b ∉ ([main_v0, main_v1] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    simp only [List.mem_cons, List.mem_nil_iff, or_false, not_or] at hb
    exact ⟨StableHlo.devRef_ne_of_ne hb.1, StableHlo.devRef_ne_of_ne hb.2⟩))

theorem W3_keep (c : Dev nD) (b : Ref sig .tc)
    (hb : b ∉ ([main_v3, main_v4, main_v5, main_v6, main_v7, main_v8, main_v9, main_v10, main_cst, main_v11, main_v12, main_v13, main_v14, main_v15, main_v16] : List (Ref sig .tc))) :
    W3 m c (Proc.devRef .tc b) = W2 m c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    simp only [List.mem_cons, List.mem_nil_iff, or_false, not_or] at hb
    obtain ⟨h1, h2, h3, h4, h5, h6, h7, h8, h9, h10, h11, h12, h13, h14, h15⟩ := hb
    exact ⟨StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15⟩))

/-- The data array, an input window of both regions, is never written. -/
theorem W1_main_arg0 (c : Dev nD) : W1 m c (Proc.devRef .tc main_arg0) = m ((c : Thread nD τ).loc main_arg0) :=
  W1_keep m c main_arg0 (by decide)
theorem W2_main_arg0 (c : Dev nD) : W2 m c (Proc.devRef .tc main_arg0) = m ((c : Thread nD τ).loc main_arg0) :=
  ((W2_arr m c 0).trans (((dat0 (V1 m) c).arrAt_in 0 rfl _).trans (A_eq0 (V1 m) c 0))).trans (W1_main_arg0 m c)
theorem W3_main_arg0 (c : Dev nD) : W3 m c (Proc.devRef .tc main_arg0) = m ((c : Thread nD τ).loc main_arg0) :=
  (W3_keep m c main_arg0 (by decide)).trans (W2_main_arg0 m c)
theorem W4_main_arg0 (c : Dev nD) : W4 m c (Proc.devRef .tc main_arg0) = m ((c : Thread nD τ).loc main_arg0) :=
  ((W4_arr m c 0).trans (((dat1 (V3 m) c).arrAt_in 0 rfl _).trans (A_eq1 (V3 m) c 0))).trans (W3_main_arg0 m c)

/-- The mask, scale and shift arguments are no window of either region and no host result. -/
theorem W4_bypass (c : Dev nD) (b : Ref sig .tc) (h0 : ∀ w, Pipeline.arrRef spec0 w ≠ b) (h1 : ∀ w, Pipeline.arrRef spec1 w ≠ b)
    (hb0 : b ∉ ([main_v0, main_v1] : List (Ref sig .tc)))
    (hb1 : b ∉ ([main_v3, main_v4, main_v5, main_v6, main_v7, main_v8, main_v9, main_v10, main_cst, main_v11, main_v12, main_v13, main_v14, main_v15, main_v16] : List (Ref sig .tc))) :
    W4 m c (Proc.devRef .tc b) = m ((c : Thread nD τ).loc b) :=
  (W4_of_ne m c b h1).trans ((W3_keep m c b hb1).trans ((W2_of_ne m c b h0).trans (W1_keep m c b hb0)))

theorem W4_main_arg1 (c : Dev nD) : W4 m c (Proc.devRef .tc main_arg1) = m ((c : Thread nD τ).loc main_arg1) :=
  W4_bypass m c main_arg1 (by decide) (by decide) (by decide) (by decide)
theorem W4_main_arg2 (c : Dev nD) : W4 m c (Proc.devRef .tc main_arg2) = m ((c : Thread nD τ).loc main_arg2) :=
  W4_bypass m c main_arg2 (by decide) (by decide) (by decide) (by decide)
theorem W4_main_arg3 (c : Dev nD) : W4 m c (Proc.devRef .tc main_arg3) = m ((c : Thread nD τ).loc main_arg3) :=
  W4_bypass m c main_arg3 (by decide) (by decide) (by decide) (by decide)

/-- The result array is the apply region's output window. -/
theorem W4_main_v17 (c : Dev nD) : W4 m c (Proc.devRef .tc main_v17) = (dat1 (V3 m) c).arrAt 4 cfg1.N :=
  W4_arr m c 4

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.Kernel.H

end
-- ==== Proof.K.Body0.lean ====
/-
  The statistics region's body, at any float instance.  The body adds the point's masked sums to three scratch
  rows; it first zeroes the rows when the point is the first of the grid, and copies them to the three outputs when
  the point is the last.  Three cases by the point: the first, a middle one, the last.
-/
import proofs.«115558_j17076789969318_1_alg».proof.Proof.K.Data
import Idealize.ShloMosaic.Lib.Pipeline.Value

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, decided over the grid -/

/-- "This is the first point" as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)
/-- "This is the last point" as the body computes it. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## Each input's staging buffer holds its slice at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The region's invariant before the first point, with the scratch rows as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ rest0 c) ∗ (∃ r, prngReg c r)) := by
  unfold Pipeline.ΦA rest0; rw [scopedRest0_eq]; simp only [sc0, sc1, sc2, owns_whole]; try rfl

theorem hz1 : (![0] : Fin 1 → ℕ) = fun _ => 0 := by funext a; match a with | ⟨0, _⟩ => rfl
theorem hz4 : (![0, 0, 0, 0] : Fin 4 → ℕ) = fun _ => 0 := by
  funext a; match a with | ⟨0, _⟩ => rfl | ⟨1, _⟩ => rfl | ⟨2, _⟩ => rfl | ⟨3, _⟩ => rfl

/-! ## The body's triple, case by case -/

set_option maxHeartbeats 2000000 in
/-- The first point: the rows start from zero whatever they held. -/
theorem sound_kernel0_A (c : Dev nD) (E : Set ℕ) (i : grid0.Coords) (hc0 : cond0_0 i) (hc1 : ¬cond0_1 i)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S128 .f32) (harg5 : arg5.IsWhole)
    (arg6 : Memref sig .tc .vmem S256 .f32) (harg6 : arg6.IsWhole) (arg7 : Memref sig .tc .vmem S256 .f32) (harg7 : arg7.IsWhole)
    (arg8 : Memref sig .tc .vmem S128 .f32) (harg8 : arg8.IsWhole)
    (x0 : Vec F S1x256x64x64 .f32) (x1 : Vec F S1x1x64x64 .f32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg6 fullShare (step0 x0 x1 zero0).1 ∗ owns (c : Thread nD τ) arg7 fullShare (step0 x0 x1 zero0).2.1
            ∗ owns (c : Thread nD τ) arg8 fullShare (step0 x0 x1 zero0).2.2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d6, %f6, -, H6⟩, ⟨%d7, %f7, -, H7⟩, ⟨%d8, %f8, -, H8⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H7]
  · iexists _; isplitr
    swap; · iexact H7
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  iexists _; isplitr
  swap; · iexact H8
  ipureintro
  try sl_unfold_words
  rw [View.read_writes_eq_canon _ _ _ (fun y => ⟨_, List.mem_cons_self .., View.mem_set_unit_zero hz1 inb_S128_S128_0 y⟩)]
  rw [View.canon_cons_unit_zero hz1]
  try sl_unfold_words
  simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
  try rfl

set_option maxHeartbeats 2000000 in
/-- A middle point: the rows go from what they held to one more step. -/
theorem sound_kernel0_B (c : Dev nD) (E : Set ℕ) (i : grid0.Coords) (hc0 : ¬cond0_0 i) (hc1 : ¬cond0_1 i)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S128 .f32) (harg5 : arg5.IsWhole)
    (arg6 : Memref sig .tc .vmem S256 .f32) (harg6 : arg6.IsWhole) (arg7 : Memref sig .tc .vmem S256 .f32) (harg7 : arg7.IsWhole)
    (arg8 : Memref sig .tc .vmem S128 .f32) (harg8 : arg8.IsWhole)
    (x0 : Vec F S1x256x64x64 .f32) (x1 : Vec F S1x1x64x64 .f32) (s0 s1 : Vec F S256 .f32) (s2 : Vec F S128 .f32) (K : PUnit → sProp 𝕄) :
    iprop(owns (c : Thread nD τ) arg1 fullShare x0 ∗ owns (c : Thread nD τ) arg2 fullShare x1
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1
            ∗ owns (c : Thread nD τ) arg6 fullShare (step0 x0 x1 (s0, s1, s2)).1 ∗ owns (c : Thread nD τ) arg7 fullShare (step0 x0 x1 (s0, s1, s2)).2.1
            ∗ owns (c : Thread nD τ) arg8 fullShare (step0 x0 x1 (s0, s1, s2)).2.2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f6, %hf6, H6⟩, ⟨%f7, %hf7, H7⟩, ⟨%f8, %hf8, H8⟩, Hk⟩
  subst hf0; subst hf1; subst hf6; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H7]
  · iexists _; isplitr
    swap; · iexact H7
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  iexists _; isplitr
  swap; · iexact H8
  ipureintro
  try sl_unfold_words
  rw [View.read_writes_eq_canon _ _ _ (fun y => ⟨_, List.mem_cons_self .., View.mem_set_unit_zero hz1 inb_S128_S128_0 y⟩)]
  rw [View.canon_cons_unit_zero hz1]
  try sl_unfold_words
  simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
  try rfl

set_option maxHeartbeats 2000000 in
/-- The last point: one more step, and the rows copied to the three outputs. -/
theorem sound_kernel0_C (c : Dev nD) (E : Set ℕ) (i : grid0.Coords) (hc0 : ¬cond0_0 i) (hc1 : cond0_1 i)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S128 .f32) (harg5 : arg5.IsWhole)
    (arg6 : Memref sig .tc .vmem S256 .f32) (harg6 : arg6.IsWhole) (arg7 : Memref sig .tc .vmem S256 .f32) (harg7 : arg7.IsWhole)
    (arg8 : Memref sig .tc .vmem S128 .f32) (harg8 : arg8.IsWhole)
    (x0 : Vec F S1x256x64x64 .f32) (x1 : Vec F S1x1x64x64 .f32) (s0 s1 : Vec F S256 .f32) (s2 : Vec F S128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1
            ∗ owns (c : Thread nD τ) arg3 fullShare (step0 x0 x1 (s0, s1, s2)).1 ∗ owns (c : Thread nD τ) arg4 fullShare (step0 x0 x1 (s0, s1, s2)).2.1
            ∗ owns (c : Thread nD τ) arg5 fullShare (step0 x0 x1 (s0, s1, s2)).2.2
            ∗ owns (c : Thread nD τ) arg6 fullShare (step0 x0 x1 (s0, s1, s2)).1 ∗ owns (c : Thread nD τ) arg7 fullShare (step0 x0 x1 (s0, s1, s2)).2.1
            ∗ owns (c : Thread nD τ) arg8 fullShare (step0 x0 x1 (s0, s1, s2)).2.2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, ⟨%f8, %hf8, H8⟩, Hk⟩
  subst hf0; subst hf1; subst hf6; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H4]
  · iexists _; isplitr
    swap; · iexact H4
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H5]
  · iexists _; isplitr
    swap; · iexact H5
    ipureintro
    try sl_unfold_words
    rw [View.read_writes_eq_canon _ _ _ (fun y => ⟨_, List.mem_cons_self .., View.mem_set_unit_zero hz1 inb_S128_S128_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H6]
  · iexists _; isplitr
    swap; · iexact H6
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H7]
  · iexists _; isplitr
    swap; · iexact H7
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  iexists _; isplitr
  swap; · iexact H8
  ipureintro
  try sl_unfold_words
  rw [View.read_writes_eq_canon _ _ _ (fun y => ⟨_, List.mem_cons_self .., View.mem_set_unit_zero hz1 inb_S128_S128_0 y⟩)]
  rw [View.canon_cons_unit_zero hz1]
  try sl_unfold_words
  simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
  try rfl

/-! ## The fold at a point, by the point -/

theorem accAt_first (c : Dev nD) (t : Fin cfg0.N) (hz : t.val = 0) :
    accAt V c t.val t.isLt = step0 (xb0 V c t) (nb0 V c t) zero0 := by
  obtain ⟨n, hn⟩ := t
  cases n with
  | zero => rfl
  | succ n => exact absurd hz (Nat.succ_ne_zero n)

theorem accAt_pos (c : Dev nD) (t : Fin cfg0.N) (hz : t.val ≠ 0) :
    accAt V c t.val t.isLt = step0 (xb0 V c t) (nb0 V c t) (accAt V c (t.val - 1) (Nat.lt_of_le_of_lt (Nat.sub_le _ _) t.isLt)) := by
  obtain ⟨n, hn⟩ := t
  cases n with
  | zero => exact absurd rfl hz
  | succ n => rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  by_cases h1 : t.val % 32 = 31
  · -- the last point
    have hc1 : cond0_1 (grid0.coords t) := (hcond0_1 t).mpr h1
    have hc0 : ¬cond0_0 (grid0.coords t) := fun h => by have := (hcond0_0 t).mp h; omega
    have hz : t.val ≠ 0 := by omega
    rw [show (dat0 V c).leavesExact 2 t = owns (c : Thread nD τ) (st0_2 t) fullShare ((dat0 V c).after 2 t) from by
        unfold Dat.leavesExact; rw [liveAt0_2 t hc1], after0_2]
    rw [show (dat0 V c).leavesExact 3 t = owns (c : Thread nD τ) (st0_3 t) fullShare ((dat0 V c).after 3 t) from by
        unfold Dat.leavesExact; rw [liveAt0_3 t hc1], after0_3]
    rw [show (dat0 V c).leavesExact 4 t = owns (c : Thread nD τ) (st0_4 t) fullShare ((dat0 V c).after 4 t) from by
        unfold Dat.leavesExact; rw [liveAt0_4 t hc1], after0_4]
    rw [Phi0_castSucc V c t, PhiS_pos V c _ _ hz, accAt_pos V c t hz]
    iintro ⟨⟨HS0, HS1, HS2, Hrest, Hg⟩, Ho, ⟨%d0, H0⟩, ⟨%d1, H1⟩, ⟨%d2, H2⟩, ⟨%d3, H3⟩, ⟨%d4, H4⟩⟩
    iapply (sound_kernel0_C c Set.univ (grid0.coords t) hc0 hc1 _ _ _ _ _ _ _ _ _ _ _ _ _ _ _ _ (xb0 V c t) (nb0 V c t) _ _ _ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    rw [Dat.leavesExact_idle (dat0 V c) 4 t (idleAt0_4 t hc1) (noFlush0_4 t hc1)]
    by_cases hz : t.val = 0
    · -- the first point
      have hc0 : cond0_0 (grid0.coords t) := (hcond0_0 t).mpr (by omega)
      rw [Phi0_castSucc V c t, PhiS_zero V c _ _ hz, PhiA0_eq, accAt_first V c t hz]
      iintro ⟨⟨⟨HS0, HS1, HS2, Hrest⟩, Hg⟩, Ho, ⟨%d0, H0⟩, ⟨%d1, H1⟩, H2, H3, H4⟩
      iapply (sound_kernel0_A c Set.univ (grid0.coords t) hc0 hc1 _ _ _ _ (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ _ (xb0 V c t) (nb0 V c t) _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hrest Hg]
      · isplitl [HS0]; · iexact HS0
        isplitl [HS1]; · iexact HS1
        isplitl [HS2]; · iexact HS2
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · -- a middle point
      have hc0 : ¬cond0_0 (grid0.coords t) := fun h => by have := (hcond0_0 t).mp h; omega
      rw [Phi0_castSucc V c t, PhiS_pos V c _ _ hz, accAt_pos V c t hz]
      iintro ⟨⟨HS0, HS1, HS2, Hrest, Hg⟩, Ho, ⟨%d0, H0⟩, ⟨%d1, H1⟩, H2, H3, H4⟩
      iapply (sound_kernel0_B c Set.univ (grid0.coords t) hc0 hc1 _ _ _ _ (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ _ (xb0 V c t) (nb0 V c t) _ _ _ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hrest Hg]
      · isplitl [HS0]; · iexact HS0
        isplitl [HS1]; · iexact HS1
        isplitl [HS2]; · iexact HS2
        isplitl [Hrest]; · iexact Hrest
        iexact Hg
      isplitl [Ho]; · iexact Ho
      isplitl [H0]; · iexact H0
      isplitl [H1]; · iexact H1
      isplitl [H2]; · iexact H2
      isplitl [H3]; · iexact H3
      iexact H4

theorem body_obligation0 (c : Dev nD) : BodyObligation (dat0 (F := F) V c) (defs₀ (F := F)) Variants.none () Set.univ := fun t => by
  rw [bigSep_W0, bigSep_W0]
  exact sound_body0 V c t

/-- After the last point the invariant gives the launch form back: the rows' named contents are forgotten. -/
theorem Phi0_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨HS0, HS1, HS2, Hrest, Hg⟩
  isplitl [HS0 HS1 HS2 Hrest]
  · isplitl [HS0]; · iexists _; iexact HS0
    isplitl [HS1]; · iexists _; iexact HS1
    isplitl [HS2]; · iexists _; iexact HS2
    iexact Hrest
  iexact Hg

end Cert.Kernel.H

end
-- ==== Proof.K.Body1.lean ====
/-
  The apply region's body, at any float instance: on whole staging buffers holding the data slice, the mask
  slice and the two per-channel rows, the body loads the four, forms one pointwise value and stores it over the
  whole output slice; the inputs are left as found.  From this, the per-point obligation of the region's loop.
-/
import proofs.«115558_j17076789969318_1_alg».proof.Proof.K.Data

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple -/

/-- The one store covers the output slice's buffer. -/
theorem cover1 (p0 : Vec F S1x256x64x64 .f32) (y : S1x256x64x64.Idx) :
    ∃ pc ∈ ([⟨r1, p0⟩] : List (View.Piece (Elt F) S1x256x64x64 .f32)), y ∈ pc.1.set :=
  View.cover_of_tiled [⟨r1, p0⟩] S1x256x64x64.size (by rfl) y

set_option maxHeartbeats 1000000 in
theorem sound_kernel1 (c : Dev nD) (E : Set ℕ) (i : grid1.Coords)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S1x256x64x64 .f32) (harg5 : arg5.IsWhole)
    (x0 : Vec F S1x256x64x64 .f32) (x1 : Vec F S1x1x64x64 .f32) (x2 x3 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E (cc1__apply_kernel i arg1 harg1 arg2 harg2 arg3 harg3 arg4 harg4 arg5 harg5) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.H

end
-- ==== Proof.K.Run.lean ====
/-
  The run of the kernel program from the launch to the return, at any float instance: @main is two host
  operations, the statistics region, fifteen host operations, the apply region.  Each region is entered from the
  buffer contents the item before it left and leaves its arrays at what its write-backs make of them; every
  weakly fair execution terminates with every unscoped buffer of the core at the fold's last valuation.  Read at
  the four arguments this is the frame; read at the result array it is the apply region's output.
-/
import proofs.«115558_j17076789969318_1_alg».proof.Proof.K.Fold
import proofs.«115558_j17076789969318_1_alg».proof.Proof.K.Body0
import proofs.«115558_j17076789969318_1_alg».proof.Proof.K.Body1

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_out (V1 m) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, and in every final
    state each unscoped buffer of each core holds the fold's last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- THE RUN WITH THE RESULT NAMED: the result array ends at the apply region's output, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v17) = W4 m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v17 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.H

end
-- ==== Proof.KI.Data.lean ====
/-
  Proof data of the two kernel regions of the masked batch-norm program, at any float instance.

  Region 0 (the statistics kernel) walks the 32 batch slices.  At every point it adds, per channel, the
  masked sum and the masked sum of squares of the slice to two scratch rows, and the slice's count of kept
  pixels to a third; at the first point the three rows start from zero, at the last point they are copied to
  the three outputs.  What the rows hold after point `n` is therefore a fold over the points `0..n`
  (`accAt`).  Region 1 (the apply kernel) writes, per slice, one pointwise expression of the slice, the
  mask slice and the two per-channel rows (`out1`).
-/
import proofs.«115558_j17076789969318_1_alg».proof.Proof.Gen.KernelIdeal.Launch
import proofs.«115558_j17076789969318_1_alg».proof.Proof.Gen.KernelIdeal.Skeleton
import proofs.«115558_j17076789969318_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: the statistics kernel -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The batch slice of the data and of the keep-mask at point `t`, at their literal types. -/
abbrev xb0 (c : Dev nD) (t : Fin cfg0.N) : Vec F S1x256x64x64 .f32 := iblk0 V c 0 t
abbrev nb0 (c : Dev nD) (t : Fin cfg0.N) : Vec F S1x1x64x64 .f32 := iblk0 V c 1 t

/-- The three scratch rows: per-channel sum, per-channel sum of squares, the count (in every lane). -/
abbrev Rows (F : FTy → Type) [FloatOps F] : Type := Vec F S256 .f32 × Vec F S256 .f32 × Vec F S128 .f32

/-- The rows before anything is added: zeros. -/
def zero0 : Rows F := (k0_pay2 (F := F), k0_pay3 (F := F), k0_pay4 (F := F))

/-- One point's update of the rows from the point's slices. -/
def step0 (x : Vec F S1x256x64x64 .f32) (n : Vec F S1x1x64x64 .f32) (s : Rows F) : Rows F :=
  (k0_pay8 x n s.1, k0_pay9 x n s.2.1, k0_pay1 (k0_pay10 n s.2.2))

/-- The rows after point `n`: the fold of `step0` over the points up to `n`, from zero. -/
def accAt (c : Dev nD) : (n : ℕ) → n < cfg0.N → Rows F
  | 0, h => step0 (xb0 V c ⟨0, h⟩) (nb0 V c ⟨0, h⟩) zero0
  | n + 1, h => step0 (xb0 V c ⟨n + 1, h⟩) (nb0 V c ⟨n + 1, h⟩) (accAt c n (Nat.lt_of_succ_lt h))

theorem accAt_zero (c : Dev nD) (h : 0 < cfg0.N) :
    accAt V c 0 h = step0 (xb0 V c ⟨0, h⟩) (nb0 V c ⟨0, h⟩) zero0 := rfl

theorem accAt_succ (c : Dev nD) (n : ℕ) (h : n + 1 < cfg0.N) :
    accAt V c (n + 1) h = step0 (xb0 V c ⟨n + 1, h⟩) (nb0 V c ⟨n + 1, h⟩) (accAt V c n (Nat.lt_of_succ_lt h)) := rfl

/-- The scratch rows as memrefs. -/
abbrev sc0 : Memref sig .tc .vmem S256 .f32 := Memref.whole cc0_scratch0
abbrev sc1 : Memref sig .tc .vmem S256 .f32 := Memref.whole cc0_scratch1
abbrev sc2 : Memref sig .tc .vmem S128 .f32 := Memref.whole cc0_scratch2

/-- The scoped buffers of the core that region 0 neither stages nor uses as scratch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's invariant before point `n`: before the first point every scratch row at anything; afterwards
    the rows at what the fold has reached; beside them the other scoped buffers and the generator register. -/
def PhiS (c : Dev nD) : (n : ℕ) → n ≤ cfg0.N → sProp 𝕄
  | 0, _ => Pipeline.ΦA spec0 c
  | n + 1, hn => iprop(owns (c : Thread nD τ) sc0 fullShare (accAt V c n hn).1
      ∗ owns (c : Thread nD τ) sc1 fullShare (accAt V c n hn).2.1
      ∗ owns (c : Thread nD τ) sc2 fullShare (accAt V c n hn).2.2
      ∗ rest0 c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) sc0 fullShare (accAt V c n hn).1
      ∗ owns (c : Thread nD τ) sc1 fullShare (accAt V c n hn).2.1
      ∗ owns (c : Thread nD τ) sc2 fullShare (accAt V c n hn).2.2
      ∗ rest0 c ∗ (∃ r, prngReg c r)) := rfl

theorem PhiS_pos (c : Dev nD) (n : ℕ) (h : n ≤ cfg0.N) (hz : n ≠ 0) :
    PhiS V c n h = iprop(owns (c : Thread nD τ) sc0 fullShare (accAt V c (n - 1) (by omega)).1
      ∗ owns (c : Thread nD τ) sc1 fullShare (accAt V c (n - 1) (by omega)).2.1
      ∗ owns (c : Thread nD τ) sc2 fullShare (accAt V c (n - 1) (by omega)).2.2
      ∗ rest0 c ∗ (∃ r, prngReg c r)) := by
  cases n with
  | zero => exact absurd rfl hz
  | succ n => rfl

/-- The proof data of region 0: the arrays as the region finds them; after the body each input's buffer at
    its slice and each output's at the matching scratch row (read only at the last point, where the body copies
    the rows out; elsewhere the outputs are idle); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt V c t.val t.isLt).1
    | ⟨3, _⟩ => (accAt V c t.val t.isLt).2.1
    | ⟨4, _⟩ => (accAt V c t.val t.isLt).2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt V c t.val t.isLt).1 := by dsimp only [dat0]
theorem after0_3 (c : Dev nD) (t : Fin cfg0.N) : (dat0 V c).after 3 t = (accAt V c t.val t.isLt).2.1 := by dsimp only [dat0]
theorem after0_4 (c : Dev nD) (t : Fin cfg0.N) : (dat0 V c).after 4 t = (accAt V c t.val t.isLt).2.2 := by dsimp only [dat0]

theorem Phi0_castSucc (c : Dev nD) (t : Fin cfg0.N) :
    (dat0 V c).Φ t.castSucc = PhiS V c t.val (Nat.le_of_lt t.isLt) := by
  dsimp only [dat0]; simp only [Fin.coe_castSucc]

/-! ## Region 1: the apply kernel -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangle of the output slice. -/
abbrev r1 : Rect S1x256x64x64 := Rect.unit (s := S1x256x64x64) ![0, 0, 0, 0] S1x256x64x64.size inb_S1x256x64x64_S1x256x64x64_0_0_0_0
abbrev r1m : Rect S1x1x64x64 := Rect.unit (s := S1x1x64x64) ![0, 0, 0, 0] S1x1x64x64.size inb_S1x1x64x64_S1x1x64x64_0_0_0_0
abbrev r1c : Rect S256 := Rect.unit (s := S256) ![0] S256.size inb_S256_S256_0

/-- What the body leaves in the output slice's buffer: its one store, of the pointwise expression of the four
    input blocks. -/
def out1 (x : Vec F S1x256x64x64 .f32) (n : Vec F S1x1x64x64 .f32) (a : Vec F S256 .f32) (b : Vec F S256 .f32) : Vec F S1x256x64x64 .f32 :=
  View.canon [⟨r1, k1_pay1 (View.ld x r1) (View.ld n r1m) (View.ld a r1c) (View.ld b r1c)⟩]

/-- The proof data of region 1: the arrays as the region finds them; after the body each input's buffer at its
    block and the output's at `out1` of the input blocks; the invariant untouched scoped buffers and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

end Cert.KernelIdeal.H

end
-- ==== Proof.KI.Fold.lean ====
/-
  The buffer contents at each boundary between the four items of @main — two host operations, the statistics
  region, fifteen host operations, the apply region — as a fold from the launch memory: a host stretch applies
  its operations; a region leaves its input arrays as entered and each output array at what its write-backs
  leave.  Each argument array reaches the end as launched, since no item writes one.
-/
import proofs.«115558_j17076789969318_1_alg».proof.Proof.KI.Data

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- No operation of either host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A buffer neither host stretch writes and no region's output: through a host stretch. -/
theorem W1_keep (c : Dev nD) (b : Ref sig .tc) (hb : b ∉ ([main_v0, main_v1] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    simp only [List.mem_cons, List.mem_nil_iff, or_false, not_or] at hb
    exact ⟨StableHlo.devRef_ne_of_ne hb.1, StableHlo.devRef_ne_of_ne hb.2⟩))

theorem W3_keep (c : Dev nD) (b : Ref sig .tc)
    (hb : b ∉ ([main_v3, main_v4, main_v5, main_v6, main_v7, main_v8, main_v9, main_v10, main_cst, main_v11, main_v12, main_v13, main_v14, main_v15, main_v16] : List (Ref sig .tc))) :
    W3 m c (Proc.devRef .tc b) = W2 m c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    simp only [List.mem_cons, List.mem_nil_iff, or_false, not_or] at hb
    obtain ⟨h1, h2, h3, h4, h5, h6, h7, h8, h9, h10, h11, h12, h13, h14, h15⟩ := hb
    exact ⟨StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8, StableHlo.devRef_ne_of_ne h9, StableHlo.devRef_ne_of_ne h10, StableHlo.devRef_ne_of_ne h11, StableHlo.devRef_ne_of_ne h12, StableHlo.devRef_ne_of_ne h13, StableHlo.devRef_ne_of_ne h14, StableHlo.devRef_ne_of_ne h15⟩))

/-- The data array, an input window of both regions, is never written. -/
theorem W1_main_arg0 (c : Dev nD) : W1 m c (Proc.devRef .tc main_arg0) = m ((c : Thread nD τ).loc main_arg0) :=
  W1_keep m c main_arg0 (by decide)
theorem W2_main_arg0 (c : Dev nD) : W2 m c (Proc.devRef .tc main_arg0) = m ((c : Thread nD τ).loc main_arg0) :=
  ((W2_arr m c 0).trans (((dat0 (V1 m) c).arrAt_in 0 rfl _).trans (A_eq0 (V1 m) c 0))).trans (W1_main_arg0 m c)
theorem W3_main_arg0 (c : Dev nD) : W3 m c (Proc.devRef .tc main_arg0) = m ((c : Thread nD τ).loc main_arg0) :=
  (W3_keep m c main_arg0 (by decide)).trans (W2_main_arg0 m c)
theorem W4_main_arg0 (c : Dev nD) : W4 m c (Proc.devRef .tc main_arg0) = m ((c : Thread nD τ).loc main_arg0) :=
  ((W4_arr m c 0).trans (((dat1 (V3 m) c).arrAt_in 0 rfl _).trans (A_eq1 (V3 m) c 0))).trans (W3_main_arg0 m c)

/-- The mask, scale and shift arguments are no window of either region and no host result. -/
theorem W4_bypass (c : Dev nD) (b : Ref sig .tc) (h0 : ∀ w, Pipeline.arrRef spec0 w ≠ b) (h1 : ∀ w, Pipeline.arrRef spec1 w ≠ b)
    (hb0 : b ∉ ([main_v0, main_v1] : List (Ref sig .tc)))
    (hb1 : b ∉ ([main_v3, main_v4, main_v5, main_v6, main_v7, main_v8, main_v9, main_v10, main_cst, main_v11, main_v12, main_v13, main_v14, main_v15, main_v16] : List (Ref sig .tc))) :
    W4 m c (Proc.devRef .tc b) = m ((c : Thread nD τ).loc b) :=
  (W4_of_ne m c b h1).trans ((W3_keep m c b hb1).trans ((W2_of_ne m c b h0).trans (W1_keep m c b hb0)))

theorem W4_main_arg1 (c : Dev nD) : W4 m c (Proc.devRef .tc main_arg1) = m ((c : Thread nD τ).loc main_arg1) :=
  W4_bypass m c main_arg1 (by decide) (by decide) (by decide) (by decide)
theorem W4_main_arg2 (c : Dev nD) : W4 m c (Proc.devRef .tc main_arg2) = m ((c : Thread nD τ).loc main_arg2) :=
  W4_bypass m c main_arg2 (by decide) (by decide) (by decide) (by decide)
theorem W4_main_arg3 (c : Dev nD) : W4 m c (Proc.devRef .tc main_arg3) = m ((c : Thread nD τ).loc main_arg3) :=
  W4_bypass m c main_arg3 (by decide) (by decide) (by decide) (by decide)

/-- The result array is the apply region's output window. -/
theorem W4_main_v17 (c : Dev nD) : W4 m c (Proc.devRef .tc main_v17) = (dat1 (V3 m) c).arrAt 4 cfg1.N :=
  W4_arr m c 4

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

end Cert.KernelIdeal.H

end
-- ==== Proof.KI.Body0.lean ====
/-
  The statistics region's body, at any float instance.  The body adds the point's masked sums to three scratch
  rows; it first zeroes the rows when the point is the first of the grid, and copies them to the three outputs when
  the point is the last.  Three cases by the point: the first, a middle one, the last.
-/
import proofs.«115558_j17076789969318_1_alg».proof.Proof.KI.Data
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, decided over the grid -/

/-- "This is the first point" as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)
/-- "This is the last point" as the body computes it. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## Each input's staging buffer holds its slice at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The region's invariant before the first point, with the scratch rows as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ rest0 c) ∗ (∃ r, prngReg c r)) := by
  unfold Pipeline.ΦA rest0; rw [scopedRest0_eq]; simp only [sc0, sc1, sc2, owns_whole]; try rfl

theorem hz1 : (![0] : Fin 1 → ℕ) = fun _ => 0 := by funext a; match a with | ⟨0, _⟩ => rfl
theorem hz4 : (![0, 0, 0, 0] : Fin 4 → ℕ) = fun _ => 0 := by
  funext a; match a with | ⟨0, _⟩ => rfl | ⟨1, _⟩ => rfl | ⟨2, _⟩ => rfl | ⟨3, _⟩ => rfl

/-! ## The body's triple, case by case -/

set_option maxHeartbeats 2000000 in
/-- The first point: the rows start from zero whatever they held. -/
theorem sound_kernel0_A (c : Dev nD) (E : Set ℕ) (i : grid0.Coords) (hc0 : cond0_0 i) (hc1 : ¬cond0_1 i)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S128 .f32) (harg5 : arg5.IsWhole)
    (arg6 : Memref sig .tc .vmem S256 .f32) (harg6 : arg6.IsWhole) (arg7 : Memref sig .tc .vmem S256 .f32) (harg7 : arg7.IsWhole)
    (arg8 : Memref sig .tc .vmem S128 .f32) (harg8 : arg8.IsWhole)
    (x0 : Vec F S1x256x64x64 .f32) (x1 : Vec F S1x1x64x64 .f32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg6 fullShare (step0 x0 x1 zero0).1 ∗ owns (c : Thread nD τ) arg7 fullShare (step0 x0 x1 zero0).2.1
            ∗ owns (c : Thread nD τ) arg8 fullShare (step0 x0 x1 zero0).2.2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d6, %f6, -, H6⟩, ⟨%d7, %f7, -, H7⟩, ⟨%d8, %f8, -, H8⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H7]
  · iexists _; isplitr
    swap; · iexact H7
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  iexists _; isplitr
  swap; · iexact H8
  ipureintro
  try sl_unfold_words
  rw [View.read_writes_eq_canon _ _ _ (fun y => ⟨_, List.mem_cons_self .., View.mem_set_unit_zero hz1 inb_S128_S128_0 y⟩)]
  rw [View.canon_cons_unit_zero hz1]
  try sl_unfold_words
  simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
  try rfl

set_option maxHeartbeats 2000000 in
/-- A middle point: the rows go from what they held to one more step. -/
theorem sound_kernel0_B (c : Dev nD) (E : Set ℕ) (i : grid0.Coords) (hc0 : ¬cond0_0 i) (hc1 : ¬cond0_1 i)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S128 .f32) (harg5 : arg5.IsWhole)
    (arg6 : Memref sig .tc .vmem S256 .f32) (harg6 : arg6.IsWhole) (arg7 : Memref sig .tc .vmem S256 .f32) (harg7 : arg7.IsWhole)
    (arg8 : Memref sig .tc .vmem S128 .f32) (harg8 : arg8.IsWhole)
    (x0 : Vec F S1x256x64x64 .f32) (x1 : Vec F S1x1x64x64 .f32) (s0 s1 : Vec F S256 .f32) (s2 : Vec F S128 .f32) (K : PUnit → sProp 𝕄) :
    iprop(owns (c : Thread nD τ) arg1 fullShare x0 ∗ owns (c : Thread nD τ) arg2 fullShare x1
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1
            ∗ owns (c : Thread nD τ) arg6 fullShare (step0 x0 x1 (s0, s1, s2)).1 ∗ owns (c : Thread nD τ) arg7 fullShare (step0 x0 x1 (s0, s1, s2)).2.1
            ∗ owns (c : Thread nD τ) arg8 fullShare (step0 x0 x1 (s0, s1, s2)).2.2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f6, %hf6, H6⟩, ⟨%f7, %hf7, H7⟩, ⟨%f8, %hf8, H8⟩, Hk⟩
  subst hf0; subst hf1; subst hf6; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H7]
  · iexists _; isplitr
    swap; · iexact H7
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  iexists _; isplitr
  swap; · iexact H8
  ipureintro
  try sl_unfold_words
  rw [View.read_writes_eq_canon _ _ _ (fun y => ⟨_, List.mem_cons_self .., View.mem_set_unit_zero hz1 inb_S128_S128_0 y⟩)]
  rw [View.canon_cons_unit_zero hz1]
  try sl_unfold_words
  simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
  try rfl

set_option maxHeartbeats 2000000 in
/-- The last point: one more step, and the rows copied to the three outputs. -/
theorem sound_kernel0_C (c : Dev nD) (E : Set ℕ) (i : grid0.Coords) (hc0 : ¬cond0_0 i) (hc1 : cond0_1 i)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S128 .f32) (harg5 : arg5.IsWhole)
    (arg6 : Memref sig .tc .vmem S256 .f32) (harg6 : arg6.IsWhole) (arg7 : Memref sig .tc .vmem S256 .f32) (harg7 : arg7.IsWhole)
    (arg8 : Memref sig .tc .vmem S128 .f32) (harg8 : arg8.IsWhole)
    (x0 : Vec F S1x256x64x64 .f32) (x1 : Vec F S1x1x64x64 .f32) (s0 s1 : Vec F S256 .f32) (s2 : Vec F S128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare s0 ∗ owns (c : Thread nD τ) arg7 fullShare s1 ∗ owns (c : Thread nD τ) arg8 fullShare s2
        ∗ (iprop(owns (c : Thread nD τ) arg1 fullShare x0 ∗ owns (c : Thread nD τ) arg2 fullShare x1
            ∗ owns (c : Thread nD τ) arg3 fullShare (step0 x0 x1 (s0, s1, s2)).1 ∗ owns (c : Thread nD τ) arg4 fullShare (step0 x0 x1 (s0, s1, s2)).2.1
            ∗ owns (c : Thread nD τ) arg5 fullShare (step0 x0 x1 (s0, s1, s2)).2.2
            ∗ owns (c : Thread nD τ) arg6 fullShare (step0 x0 x1 (s0, s1, s2)).1 ∗ owns (c : Thread nD τ) arg7 fullShare (step0 x0 x1 (s0, s1, s2)).2.1
            ∗ owns (c : Thread nD τ) arg8 fullShare (step0 x0 x1 (s0, s1, s2)).2.2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d3, %f3, -, H3⟩, ⟨%d4, %f4, -, H4⟩, ⟨%d5, %f5, -, H5⟩, ⟨%f6, %hf6, H6⟩, ⟨%f7, %hf7, H7⟩, ⟨%f8, %hf8, H8⟩, Hk⟩
  subst hf0; subst hf1; subst hf6; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H4]
  · iexists _; isplitr
    swap; · iexact H4
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H5]
  · iexists _; isplitr
    swap; · iexact H5
    ipureintro
    try sl_unfold_words
    rw [View.read_writes_eq_canon _ _ _ (fun y => ⟨_, List.mem_cons_self .., View.mem_set_unit_zero hz1 inb_S128_S128_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H6]
  · iexists _; isplitr
    swap; · iexact H6
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  isplitl [H7]
  · iexists _; isplitr
    swap; · iexact H7
    ipureintro
    try sl_unfold_words
    rw [View.read_writes_eq_canon _ _ _ (fun y => ⟨_, List.mem_cons_self .., View.mem_set_unit_zero hz1 inb_S256_S256_0 y⟩)]
    rw [View.canon_cons_unit_zero hz1]
    try sl_unfold_words
    simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
    try rfl
  iexists _; isplitr
  swap; · iexact H8
  ipureintro
  try sl_unfold_words
  rw [View.read_writes_eq_canon _ _ _ (fun y => ⟨_, List.mem_cons_self .., View.mem_set_unit_zero hz1 inb_S128_S128_0 y⟩)]
  rw [View.canon_cons_unit_zero hz1]
  try sl_unfold_words
  simp only [View.readCov_unit_zero (S := S256) _ hz1, View.readCov_unit_zero (S := S128) _ hz1, View.readAt_eq_ld, View.ld_unit_zero (S := S1x256x64x64) hz4, View.ld_unit_zero (S := S1x1x64x64) hz4, View.ld_unit_zero (S := S256) hz1, View.ld_unit_zero (S := S128) hz1]
  try rfl

/-! ## The fold at a point, by the point -/

theorem accAt_first (c : Dev nD) (t : Fin cfg0.N) (hz : t.val = 0) :
    accAt V c t.val t.isLt = step0 (xb0 V c t) (nb0 V c t) zero0 := by
  obtain ⟨n, hn⟩ := t
  cases n with
  | zero => rfl
  | succ n => exact absurd hz (Nat.succ_ne_zero n)

theorem accAt_pos (c : Dev nD) (t : Fin cfg0.N) (hz : t.val ≠ 0) :
    accAt V c t.val t.isLt = step0 (xb0 V c t) (nb0 V c t) (accAt V c (t.val - 1) (Nat.lt_of_le_of_lt (Nat.sub_le _ _) t.isLt)) := by
  obtain ⟨n, hn⟩ := t
  cases n with
  | zero => exact absurd rfl hz
  | succ n => rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  by_cases h1 : t.val % 32 = 31
  · -- the last point
    have hc1 : cond0_1 (grid0.coords t) := (hcond0_1 t).mpr h1
    have hc0 : ¬cond0_0 (grid0.coords t) := fun h => by have := (hcond0_0 t).mp h; omega
    have hz : t.val ≠ 0 := by omega
    rw [show (dat0 V c).leavesExact 2 t = owns (c : Thread nD τ) (st0_2 t) fullShare ((dat0 V c).after 2 t) from by
        unfold Dat.leavesExact; rw [liveAt0_2 t hc1], after0_2]
    rw [show (dat0 V c).leavesExact 3 t = owns (c : Thread nD τ) (st0_3 t) fullShare ((dat0 V c).after 3 t) from by
        unfold Dat.leavesExact; rw [liveAt0_3 t hc1], after0_3]
    rw [show (dat0 V c).leavesExact 4 t = owns (c : Thread nD τ) (st0_4 t) fullShare ((dat0 V c).after 4 t) from by
        unfold Dat.leavesExact; rw [liveAt0_4 t hc1], after0_4]
    rw [Phi0_castSucc V c t, PhiS_pos V c _ _ hz, accAt_pos V c t hz]
    iintro ⟨⟨HS0, HS1, HS2, Hrest, Hg⟩, Ho, ⟨%d0, H0⟩, ⟨%d1, H1⟩, ⟨%d2, H2⟩, ⟨%d3, H3⟩, ⟨%d4, H4⟩⟩
    iapply (sound_kernel0_C c Set.univ (grid0.coords t) hc0 hc1 _ _ _ _ _ _ _ _ _ _ _ _ _ _ _ _ (xb0 V c t) (nb0 V c t) _ _ _ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    rw [Dat.leavesExact_idle (dat0 V c) 4 t (idleAt0_4 t hc1) (noFlush0_4 t hc1)]
    by_cases hz : t.val = 0
    · -- the first point
      have hc0 : cond0_0 (grid0.coords t) := (hcond0_0 t).mpr (by omega)
      rw [Phi0_castSucc V c t, PhiS_zero V c _ _ hz, PhiA0_eq, accAt_first V c t hz]
      iintro ⟨⟨⟨HS0, HS1, HS2, Hrest⟩, Hg⟩, Ho, ⟨%d0, H0⟩, ⟨%d1, H1⟩, H2, H3, H4⟩
      iapply (sound_kernel0_A c Set.univ (grid0.coords t) hc0 hc1 _ _ _ _ (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ _ (xb0 V c t) (nb0 V c t) _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hrest Hg]
      · isplitl [HS0]; · iexact HS0
        isplitl [HS1]; · iexact HS1
        isplitl [HS2]; · iexact HS2
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · -- a middle point
      have hc0 : ¬cond0_0 (grid0.coords t) := fun h => by have := (hcond0_0 t).mp h; omega
      rw [Phi0_castSucc V c t, PhiS_pos V c _ _ hz, accAt_pos V c t hz]
      iintro ⟨⟨HS0, HS1, HS2, Hrest, Hg⟩, Ho, ⟨%d0, H0⟩, ⟨%d1, H1⟩, H2, H3, H4⟩
      iapply (sound_kernel0_B c Set.univ (grid0.coords t) hc0 hc1 _ _ _ _ (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ _ (xb0 V c t) (nb0 V c t) _ _ _ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hrest Hg]
      · isplitl [HS0]; · iexact HS0
        isplitl [HS1]; · iexact HS1
        isplitl [HS2]; · iexact HS2
        isplitl [Hrest]; · iexact Hrest
        iexact Hg
      isplitl [Ho]; · iexact Ho
      isplitl [H0]; · iexact H0
      isplitl [H1]; · iexact H1
      isplitl [H2]; · iexact H2
      isplitl [H3]; · iexact H3
      iexact H4

theorem body_obligation0 (c : Dev nD) : BodyObligation (dat0 (F := F) V c) (defs₀ (F := F)) Variants.none () Set.univ := fun t => by
  rw [bigSep_W0, bigSep_W0]
  exact sound_body0 V c t

/-- After the last point the invariant gives the launch form back: the rows' named contents are forgotten. -/
theorem Phi0_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨HS0, HS1, HS2, Hrest, Hg⟩
  isplitl [HS0 HS1 HS2 Hrest]
  · isplitl [HS0]; · iexists _; iexact HS0
    isplitl [HS1]; · iexists _; iexact HS1
    isplitl [HS2]; · iexists _; iexact HS2
    iexact Hrest
  iexact Hg

end Cert.KernelIdeal.H

end
-- ==== Proof.KI.Body1.lean ====
/-
  The apply region's body, at any float instance: on whole staging buffers holding the data slice, the mask
  slice and the two per-channel rows, the body loads the four, forms one pointwise value and stores it over the
  whole output slice; the inputs are left as found.  From this, the per-point obligation of the region's loop.
-/
import proofs.«115558_j17076789969318_1_alg».proof.Proof.KI.Data

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple -/

/-- The one store covers the output slice's buffer. -/
theorem cover1 (p0 : Vec F S1x256x64x64 .f32) (y : S1x256x64x64.Idx) :
    ∃ pc ∈ ([⟨r1, p0⟩] : List (View.Piece (Elt F) S1x256x64x64 .f32)), y ∈ pc.1.set :=
  View.cover_of_tiled [⟨r1, p0⟩] S1x256x64x64.size (by rfl) y

set_option maxHeartbeats 1000000 in
theorem sound_kernel1 (c : Dev nD) (E : Set ℕ) (i : grid1.Coords)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S1x256x64x64 .f32) (harg5 : arg5.IsWhole)
    (x0 : Vec F S1x256x64x64 .f32) (x1 : Vec F S1x1x64x64 .f32) (x2 x3 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1 x0 x1 x2 x3)) -∗ K ⟨⟩))
      ⊢ wp frame (wpE (defs₀ (F := F)) Variants.none c none) E (cc1__apply_kernel i arg1 harg1 arg2 harg2 arg3 harg3 arg4 harg4 arg5 harg5) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.H

end
-- ==== Proof.KI.Run.lean ====
/-
  The run of the kernel program from the launch to the return, at any float instance: @main is two host
  operations, the statistics region, fifteen host operations, the apply region.  Each region is entered from the
  buffer contents the item before it left and leaves its arrays at what its write-backs make of them; every
  weakly fair execution terminates with every unscoped buffer of the core at the fold's last valuation.  Read at
  the four arguments this is the frame; read at the result array it is the apply region's output.
-/
import proofs.«115558_j17076789969318_1_alg».proof.Proof.KI.Fold
import proofs.«115558_j17076789969318_1_alg».proof.Proof.KI.Body0
import proofs.«115558_j17076789969318_1_alg».proof.Proof.KI.Body1

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_out (V1 m) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, and in every final
    state each unscoped buffer of each core holds the fold's last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- THE RUN WITH THE RESULT NAMED: the result array ends at the apply region's output, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v17) = W4 m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v17 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.H

end
-- ==== Proof.Spec.lean ====
/-
  Masked batch normalisation over the extended reals: the two ways the programs compute it, as functions of the
  data `x` (32 batches × 256 channels × 64 × 64), the keep-mask `nm` (0 or 1 per batch and pixel), and the
  per-channel scale `g` and offset `be`.

  With `cnt` the number of kept pixels, `sx d` and `sq d` the masked sum and sum of squares of channel `d`:
  the kernel forms the mean `sx / cnt`, the variance as `sq / cnt - mean²`, the factor `g / √(var + ε)`, and
  writes `x + nm · (x · (factor - 1) + (be - mean · factor))`; the reference forms the variance as the masked
  mean of `(x - mean)²` and writes `(x - mean) · factor + be` where the pixel is kept and `x` elsewhere.
-/
import Idealize.ShloMosaic.PureOps.Ideal
import Idealize.ShloMosaic.Lib.ValueIdx

noncomputable section

namespace Cert.MBN

open Idealize.ShloMosaic Idealize.ShloMosaic.ValueIdx

abbrev SX : Shape := ⟨4, ![32, 256, 64, 64]⟩
abbrev SM : Shape := ⟨4, ![32, 1, 64, 64]⟩
abbrev SC : Shape := ⟨1, ![256]⟩

/-- The index of batch `b`, channel `d`, pixel `(h, w)` in the data; of batch `b`, pixel `(h, w)` in the mask. -/
abbrev ixX (b : Fin 32) (d : Fin 256) (h w : Fin 64) : SX.Idx := ix4 b d h w
abbrev ixM (b : Fin 32) (h w : Fin 64) : SM.Idx := ix4 b (0 : Fin 1) h w
abbrev ixC (d : Fin 256) : SC.Idx := ix1 d

variable (x : SX.Idx → EReal) (nm : SM.Idx → EReal) (g be : SC.Idx → EReal)

/-- The variance's ε, the kernel's literal one. -/
def eps : EReal := Ideal.ofBits .f32 0x3727C5AC#32
def one : EReal := Ideal.ofBits .f32 0x3F800000#32

/-- The number of kept pixels; the masked sum and sum of squares of channel `d`. -/
def cnt : EReal := ∑ b : Fin 32, ∑ h : Fin 64, ∑ w : Fin 64, nm (ixM b h w)
def sx (d : Fin 256) : EReal := ∑ b : Fin 32, ∑ h : Fin 64, ∑ w : Fin 64, x (ixX b d h w) * nm (ixM b h w)
def sq (d : Fin 256) : EReal := ∑ b : Fin 32, ∑ h : Fin 64, ∑ w : Fin 64, x (ixX b d h w) * (x (ixX b d h w) * nm (ixM b h w))

/-- The masked mean of channel `d`. -/
def mean (d : Fin 256) : EReal := Ideal.div (sx x nm d) (cnt nm)

/-! ### The kernel's way -/
def kvar (d : Fin 256) : EReal := Ideal.div (sq x nm d) (cnt nm) - mean x nm d * mean x nm d
def kinv (d : Fin 256) : EReal := Ideal.div (g (ixC d)) (Ideal.sqrt (kvar x nm d + eps))
def kshift (d : Fin 256) : EReal := be (ixC d) - mean x nm d * kinv x nm g d
def Kval (b : Fin 32) (d : Fin 256) (h w : Fin 64) : EReal :=
  x (ixX b d h w) + nm (ixM b h w) * (x (ixX b d h w) * (kinv x nm g d - one) + kshift x nm g be d)

/-! ### The reference's way -/
def rsq (d : Fin 256) : EReal :=
  ∑ b : Fin 32, ∑ h : Fin 64, ∑ w : Fin 64, ((x (ixX b d h w) - mean x nm d) * (x (ixX b d h w) - mean x nm d)) * nm (ixM b h w)
def rvar (d : Fin 256) : EReal := Ideal.div (rsq x nm d) (cnt nm)
def rinv (d : Fin 256) : EReal := Ideal.div (g (ixC d)) (Ideal.sqrt (rvar x nm d + eps))
def Rval (b : Fin 32) (d : Fin 256) (h w : Fin 64) : EReal :=
  (x (ixX b d h w) - mean x nm d) * rinv x nm g d + be (ixC d)

/-- The keep-mask as numbers: 1 where the exclusion bit is clear, 0 where it is set. -/
def nmOf (mk : SM.Idx → BitVec 1) : SM.Idx → EReal := fun j => (((~~~ (mk j)).toNat : ℝ) : EReal)

/-- A value is finite when it is a real number. -/
def Fin' (v : EReal) : Prop := ∃ r : ℝ, v = (r : EReal)

end Cert.MBN

end
-- ==== Proof.KI.Pay0.lean ====
/-
  The statistics kernel's payloads read at one index, over the extended reals.

  Each payload is a short chain of layout operations (casts that add or drop a unit axis, one broadcast
  of the mask slice over the channels), pointwise products, and sums along one axis at a time.  Read at an
  index given by its coordinates, the three starting rows are zero, and the three updated rows are the old
  row plus a double sum over the pixels of the slice: of the masked data, of the data times the masked
  data, and of the mask itself (the same in every lane).
-/
import proofs.«115558_j17076789969318_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.H

open Cert.KernelIdeal Cert.KernelIdeal.Gen Idealize.ShloMosaic Idealize.ShloMosaic.ValueIdx

/-! ## The starting rows: zero everywhere -/

theorem pay2_apply (i : S256.Idx) : k0_pay2 (F := Ideal) i = 0 := by
  unfold k0_pay2
  rw [shapeCast_self]
  exact Ideal.ofBits_zero_f32

theorem pay3_apply (i : S256.Idx) : k0_pay3 (F := Ideal) i = 0 := by
  unfold k0_pay3
  rw [shapeCast_self]
  exact Ideal.ofBits_zero_f32

theorem pay4_apply (i : S128.Idx) : k0_pay4 (F := Ideal) i = 0 := by
  unfold k0_pay4
  rw [shapeCast_self]
  exact Ideal.ofBits_zero_f32

/-! ## The layout steps at an index -/

/-- The data slice with its unit batch axis dropped, at (d, h, w): the slice at (0, d, h, w). -/
theorem pay5_apply (x : Vec Ideal S1x256x64x64 .f32) (d : Fin 256) (h w : Fin 64) :
    k0_pay5 x (ix3 d h w) = x (ix4 (0 : Fin 1) d h w) := by
  unfold k0_pay5
  exact shapeCast_1abc_abc_apply x _ d h w

/-- The mask slice with its two unit axes dropped, at (h, w): the slice at (0, 0, h, w). -/
theorem pay6_apply (n : Vec Ideal S1x1x64x64 .f32) (h w : Fin 64) :
    k0_pay6 n (ix2 h w) = n (ix4 (0 : Fin 1) (0 : Fin 1) h w) := by
  unfold k0_pay6
  refine shapeCast_apply n _ _ _ ?_
  rw [Shape.rowMajor_val_four, Shape.rowMajor_val_two]
  show ((0 * 1 + 0) * 64 + h.val) * 64 + w.val = h.val * 64 + w.val
  omega

/-- The masked data at (d, h, w): the data there times the mask at (h, w), whatever the channel. -/
theorem pay7_apply (x : Vec Ideal S1x256x64x64 .f32) (n : Vec Ideal S1x1x64x64 .f32) (d : Fin 256) (h w : Fin 64) :
    k0_pay7 x n (ix3 d h w) = x (ix4 (0 : Fin 1) d h w) * n (ix4 (0 : Fin 1) (0 : Fin 1) h w) := by
  unfold k0_pay7
  rw [shapeCast_self]
  refine (mulf_apply _ _ _).trans ?_
  rw [pay5_apply]
  refine congrArg (x (ix4 (0 : Fin 1) d h w) * ·) ?_
  refine (broadcastTo_apply _ _ _ (ix3 (0 : Fin 1) h w) fun a => ?_).trans ?_
  · match a with
    | ⟨0, _⟩ => rfl
    | ⟨1, _⟩ => rfl
    | ⟨2, _⟩ => rfl
  · exact (shapeCast_ab_1ab_apply _ _ (0 : Fin 1) h w).trans (pay6_apply n h w)

/-! ## The sums along one axis at an index -/

/-- The sum along the last axis of a [256, 64, 64] value, at (d, h). -/
theorem sumW_apply (v : FVec Ideal S256x64x64 .f32) (hr : S256x64x64.Reduces [2] S256x64) (hφ : FKind.Formats .f32)
    (hacc : (0x00000000#32 : BitVec 32) = FKind.add.neutral .f32 hφ) (d : Fin 256) (h : Fin 64) :
    multiReduction .add [2] S256x64 v 0x00000000#32 hr hφ hacc (ix2 d h) = ∑ w : Fin 64, v (ix3 d h w) := by
  refine (Ideal.multiReduction_add_single v _ hr hφ hacc (ix2 d h)).trans ?_
  refine Finset.sum_congr rfl fun w _ => congrArg v (funext fun c => ?_)
  match c with
  | ⟨0, _⟩ => rfl
  | ⟨1, _⟩ => rfl
  | ⟨2, _⟩ => rfl

/-- The sum along the last axis of a [256, 64] value, at d. -/
theorem sumH_apply (v : FVec Ideal S256x64 .f32) (hr : S256x64.Reduces [1] S256) (hφ : FKind.Formats .f32)
    (hacc : (0x00000000#32 : BitVec 32) = FKind.add.neutral .f32 hφ) (d : Fin 256) :
    multiReduction .add [1] S256 v 0x00000000#32 hr hφ hacc (ix1 d) = ∑ h : Fin 64, v (ix2 d h) := by
  refine (Ideal.multiReduction_add_single v _ hr hφ hacc (ix1 d)).trans ?_
  refine Finset.sum_congr rfl fun h _ => congrArg v (funext fun c => ?_)
  match c with
  | ⟨0, _⟩ => rfl
  | ⟨1, _⟩ => rfl

/-! ## The updated rows at an index -/

theorem pay8_apply (x : Vec Ideal S1x256x64x64 .f32) (n : Vec Ideal S1x1x64x64 .f32) (s : Vec Ideal S256 .f32) (d : Fin 256) :
    k0_pay8 x n s (ix1 d) = s (ix1 d) + ∑ h : Fin 64, ∑ w : Fin 64, x (ix4 (0 : Fin 1) d h w) * n (ix4 (0 : Fin 1) (0 : Fin 1) h w) := by
  unfold k0_pay8
  rw [shapeCast_self]
  refine (addf_apply _ _ _).trans (congrArg (s (ix1 d) + ·) ?_)
  refine (sumH_apply _ _ _ _ d).trans (Finset.sum_congr rfl fun h _ => ?_)
  refine (sumW_apply _ _ _ _ d h).trans (Finset.sum_congr rfl fun w _ => ?_)
  exact pay7_apply x n d h w

theorem pay9_apply (x : Vec Ideal S1x256x64x64 .f32) (n : Vec Ideal S1x1x64x64 .f32) (s : Vec Ideal S256 .f32) (d : Fin 256) :
    k0_pay9 x n s (ix1 d) = s (ix1 d) + ∑ h : Fin 64, ∑ w : Fin 64, x (ix4 (0 : Fin 1) d h w) * (x (ix4 (0 : Fin 1) d h w) * n (ix4 (0 : Fin 1) (0 : Fin 1) h w)) := by
  unfold k0_pay9
  rw [shapeCast_self]
  refine (addf_apply _ _ _).trans (congrArg (s (ix1 d) + ·) ?_)
  refine (sumH_apply _ _ _ _ d).trans (Finset.sum_congr rfl fun h _ => ?_)
  refine (sumW_apply _ _ _ _ d h).trans (Finset.sum_congr rfl fun w _ => ?_)
  refine (mulf_apply _ _ _).trans ?_
  rw [pay5_apply, pay7_apply]

/-- The sum along the last axis of a [64, 64] value, at h. -/
theorem sumW2_apply (v : FVec Ideal S64x64 .f32) (hr : S64x64.Reduces [1] S64) (hφ : FKind.Formats .f32)
    (hacc : (0x00000000#32 : BitVec 32) = FKind.add.neutral .f32 hφ) (h : Fin 64) :
    multiReduction .add [1] S64 v 0x00000000#32 hr hφ hacc (ix1 h) = ∑ w : Fin 64, v (ix2 h w) := by
  refine (Ideal.multiReduction_add_single v _ hr hφ hacc (ix1 h)).trans ?_
  refine Finset.sum_congr rfl fun w _ => congrArg v (funext fun c => ?_)
  match c with
  | ⟨0, _⟩ => rfl
  | ⟨1, _⟩ => rfl

/-- The sum along the last axis of a [1, 64] value, at its one index. -/
theorem sumH2_apply (v : FVec Ideal S1x64 .f32) (hr : S1x64.Reduces [1] S1) (hφ : FKind.Formats .f32)
    (hacc : (0x00000000#32 : BitVec 32) = FKind.add.neutral .f32 hφ) (u : Fin 1) :
    multiReduction .add [1] S1 v 0x00000000#32 hr hφ hacc (ix1 u) = ∑ h : Fin 64, v (ix2 u h) := by
  refine (Ideal.multiReduction_add_single v _ hr hφ hacc (ix1 u)).trans ?_
  refine Finset.sum_congr rfl fun h _ => congrArg v (funext fun c => ?_)
  match c with
  | ⟨0, _⟩ => rfl
  | ⟨1, _⟩ => rfl

theorem pay10_apply (n : Vec Ideal S1x1x64x64 .f32) (s : Vec Ideal S128 .f32) (l : Fin 128) :
    k0_pay1 (k0_pay10 n s) (ix1 l) = s (ix1 l) + ∑ h : Fin 64, ∑ w : Fin 64, n (ix4 (0 : Fin 1) (0 : Fin 1) h w) := by
  unfold k0_pay1 k0_pay10
  rw [shapeCast_self]
  refine (addf_apply _ _ _).trans (congrArg (s (ix1 l) + ·) ?_)
  refine (broadcast_apply _ _).trans ?_
  unfold extractAt
  refine (shapeCast_apply _ _ _ (ix1 (0 : Fin 1)) ?_).trans ?_
  · rw [Shape.rowMajor_val_one, Shape.rowMajor_val_two]
    rfl
  refine (sumH2_apply _ _ _ _ (0 : Fin 1)).trans (Finset.sum_congr rfl fun h _ => ?_)
  refine (shapeCast_a_1a_apply _ _ (0 : Fin 1) h).trans ?_
  refine (sumW2_apply _ _ _ _ h).trans (Finset.sum_congr rfl fun w _ => ?_)
  exact pay6_apply n h w

end Cert.KernelIdeal.H

end
-- ==== Proof.KI.Val0.lean ====
/-
  What the statistics region leaves in its three output arrays.

  The region walks the 32 batch slices of the data `x` and of the keep-mask `nm`.  At point `t` it reads batch
  `t` of each, and adds to three rows: per channel `d` the slice's masked sum `∑ h w, x[t,d,h,w] · nm[t,h,w]`,
  per channel the masked sum of squares `∑ h w, x[t,d,h,w] · (x[t,d,h,w] · nm[t,h,w])`, and in every lane the
  slice's count `∑ h w, nm[t,h,w]`.  The rows start from zero, so after point `n` they hold these terms added
  over the batches `0 … n`; after the last point they hold the sums over all 32 batches, which are `sx`, `sq`
  and `cnt` of the specification.  Each output array is a single block at offset zero that is written back at
  the last point only, and that block is the whole array: so each array ends as the matching row.
-/
import proofs.«115558_j17076789969318_1_alg».proof.Proof.KI.Fold
import proofs.«115558_j17076789969318_1_alg».proof.Proof.Spec
import proofs.«115558_j17076789969318_1_alg».proof.Proof.KI.Pay0
import Idealize.ShloMosaic.Lib.Pipeline.Value
import Idealize.ShloMosaic.Lib.ValueIdx

noncomputable section

namespace Cert.KernelIdeal.H

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the buffer contents when the statistics region is entered, as extended reals
variable (V : (c : Dev nD) → (b : Ref sig .tc) → Buf (Elt Ideal) ((c : Thread nD τ).loc b))

/-! ## The slice read at point `t` is batch `t` -/

/-- A point of the 32-point grid, as a batch number. -/
abbrev bat (t : Fin cfg0.N) : Fin 32 := ⟨t.val, by have := t.isLt; have e : cfg0.N = 32 := N_0; omega⟩

/-- The data's block at point `t` is block `(t, 0, 0, 0)`; likewise the keep-mask's. -/
theorem idx_x : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem idx_n : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The data and the keep-mask as the region finds them, at their literal types. -/
abbrev xA (c : Dev nD) : S32x256x64x64.Idx → EReal := V c main_arg0
abbrev nA (c : Dev nD) : S32x1x64x64.Idx → EReal := V c main_v1

/-- Entry `(0, d, h, w)` of the data slice at point `t` is entry `(t, d, h, w)` of the data: a block of sizes
    `(1, 256, 64, 64)` at block index `(t, 0, 0, 0)` starts at `(t, 0, 0, 0)`. -/
theorem xb0_apply (c : Dev nD) (t : Fin cfg0.N) (d : Fin 256) (h w : Fin 64) :
    xb0 V c t (ix4 (0 : Fin 1) d h w) = xA V c (ix4 (bat t) d h w) := by
  unfold xb0 iblk0
  rw [View.read_apply]
  show V c main_arg0 (((cfg0.win 0).blk t).view.emb (ix4 (0 : Fin 1) d h w)) = V c main_arg0 (ix4 (bat t) d h w)
  obtain ⟨e0, e1, e2, e3⟩ := idx_x t
  refine congrArg (V c main_arg0) (funext fun a => Fin.ext ?_)
  match a with
  | ⟨0, _⟩ => show win0_0.index t (0 : Fin 4) * 1 + 1 * 0 = t.val; omega
  | ⟨1, _⟩ => show win0_0.index t (1 : Fin 4) * 256 + 1 * d.val = d.val; omega
  | ⟨2, _⟩ => show win0_0.index t (2 : Fin 4) * 64 + 1 * h.val = h.val; omega
  | ⟨3, _⟩ => show win0_0.index t (3 : Fin 4) * 64 + 1 * w.val = w.val; omega

/-- Entry `(0, 0, h, w)` of the mask slice at point `t` is entry `(t, 0, h, w)` of the keep-mask. -/
theorem nb0_apply (c : Dev nD) (t : Fin cfg0.N) (h w : Fin 64) :
    nb0 V c t (ix4 (0 : Fin 1) (0 : Fin 1) h w) = nA V c (ix4 (bat t) (0 : Fin 1) h w) := by
  unfold nb0 iblk0
  rw [View.read_apply]
  show V c main_v1 (((cfg0.win 1).blk t).view.emb (ix4 (0 : Fin 1) (0 : Fin 1) h w)) = V c main_v1 (ix4 (bat t) (0 : Fin 1) h w)
  obtain ⟨e0, e1, e2, e3⟩ := idx_n t
  refine congrArg (V c main_v1) (funext fun a => Fin.ext ?_)
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 64 + 1 * h.val = h.val; omega
  | ⟨3, _⟩ => show win0_1.index t (3 : Fin 4) * 64 + 1 * w.val = w.val; omega

/-! ## Sums over the batches up to a bound -/

/-- Only batch 0 is at most 0. -/
theorem psum_zero (T : Fin 32 → EReal) : (∑ b : Fin 32, if b.val ≤ 0 then T b else 0) = T 0 := by
  rw [Finset.sum_eq_single (0 : Fin 32)]
  · rfl
  · intro b _ hb
    have : ¬ b.val ≤ 0 := fun h => hb (Fin.ext (by have : (0 : Fin 32).val = 0 := rfl; omega))
    rw [if_neg this]
  · intro h; exact absurd (Finset.mem_univ _) h

/-- Raising the bound by one adds the term of the batch at the new bound: a batch is at most `n + 1` exactly when
    it is at most `n` or equal to `n + 1`, and never both. -/
theorem psum_succ (T : Fin 32 → EReal) (n : ℕ) (hn : n + 1 < 32) :
    (∑ b : Fin 32, if b.val ≤ n + 1 then T b else 0) = (∑ b : Fin 32, if b.val ≤ n then T b else 0) + T ⟨n + 1, hn⟩ := by
  have split : ∀ b : Fin 32, (if b.val ≤ n + 1 then T b else 0)
      = (if b.val ≤ n then T b else 0) + (if b = ⟨n + 1, hn⟩ then T b else 0) := by
    intro b
    by_cases h1 : b.val ≤ n
    · have h2 : b ≠ ⟨n + 1, hn⟩ := fun e => by have := congrArg Fin.val e; dsimp only at this; omega
      rw [if_pos h1, if_pos (by omega), if_neg h2, add_zero]
    · by_cases h3 : b.val = n + 1
      · have h4 : b = ⟨n + 1, hn⟩ := Fin.ext h3
        rw [if_neg h1, if_pos (by omega), if_pos h4, zero_add]
      · have h4 : b ≠ ⟨n + 1, hn⟩ := fun e => h3 (congrArg Fin.val e)
        rw [if_neg h1, if_neg (by omega), if_neg h4, add_zero]
  rw [Finset.sum_congr rfl (fun b _ => split b), Finset.sum_add_distrib, Finset.sum_ite_eq', if_pos (Finset.mem_univ _)]

/-- Every batch is at most 31. -/
theorem psum_last (T : Fin 32 → EReal) : (∑ b : Fin 32, if b.val ≤ 31 then T b else 0) = ∑ b : Fin 32, T b :=
  Finset.sum_congr rfl fun b _ => if_pos (by have := b.isLt; omega)

/-! ## What the rows hold after point `n` -/

/-- Batch `b`'s masked sum of channel `d`, its masked sum of squares, and its count of kept pixels. -/
abbrev tX (c : Dev nD) (d : Fin 256) (b : Fin 32) : EReal :=
  ∑ h : Fin 64, ∑ w : Fin 64, xA V c (ix4 b d h w) * nA V c (ix4 b (0 : Fin 1) h w)
abbrev tQ (c : Dev nD) (d : Fin 256) (b : Fin 32) : EReal :=
  ∑ h : Fin 64, ∑ w : Fin 64, xA V c (ix4 b d h w) * (xA V c (ix4 b d h w) * nA V c (ix4 b (0 : Fin 1) h w))
abbrev tC (c : Dev nD) (b : Fin 32) : EReal :=
  ∑ h : Fin 64, ∑ w : Fin 64, nA V c (ix4 b (0 : Fin 1) h w)

/-- What point `t` adds to channel `d`'s sum is batch `t`'s term; likewise for the squares and the count. -/
theorem slice_sx (c : Dev nD) (t : Fin cfg0.N) (d : Fin 256) :
    (∑ h : Fin 64, ∑ w : Fin 64, xb0 V c t (ix4 (0 : Fin 1) d h w) * nb0 V c t (ix4 (0 : Fin 1) (0 : Fin 1) h w)) = tX V c d (bat t) :=
  Finset.sum_congr rfl fun h _ => Finset.sum_congr rfl fun w _ => by rw [xb0_apply, nb0_apply]

theorem slice_sq (c : Dev nD) (t : Fin cfg0.N) (d : Fin 256) :
    (∑ h : Fin 64, ∑ w : Fin 64, xb0 V c t (ix4 (0 : Fin 1) d h w) * (xb0 V c t (ix4 (0 : Fin 1) d h w) * nb0 V c t (ix4 (0 : Fin 1) (0 : Fin 1) h w))) = tQ V c d (bat t) :=
  Finset.sum_congr rfl fun h _ => Finset.sum_congr rfl fun w _ => by rw [xb0_apply, nb0_apply]

theorem slice_cnt (c : Dev nD) (t : Fin cfg0.N) :
    (∑ h : Fin 64, ∑ w : Fin 64, nb0 V c t (ix4 (0 : Fin 1) (0 : Fin 1) h w)) = tC V c (bat t) :=
  Finset.sum_congr rfl fun h _ => Finset.sum_congr rfl fun w _ => by rw [nb0_apply]

/-- After point `n` the first row holds, per channel, the masked sums of the batches `0 … n` added up: at point 0
    the row is `0 +` batch 0's term, and each later point adds its own batch's term to what the point before left. -/
theorem acc_sx (c : Dev nD) (d : Fin 256) : ∀ (n : ℕ) (hn : n < cfg0.N),
    (accAt V c n hn).1 (ix1 d) = ∑ b : Fin 32, if b.val ≤ n then tX V c d b else 0
  | 0, hn => by
    rw [accAt_zero]
    show k0_pay8 (xb0 V c ⟨0, hn⟩) (nb0 V c ⟨0, hn⟩) (k0_pay2 (F := Ideal)) (ix1 d) = _
    rw [pay8_apply, pay2_apply, zero_add, psum_zero, slice_sx]
    exact congrArg (tX V c d) (Fin.ext rfl)
  | n + 1, hn => by
    rw [accAt_succ]
    show k0_pay8 (xb0 V c ⟨n + 1, hn⟩) (nb0 V c ⟨n + 1, hn⟩) (accAt V c n (Nat.lt_of_succ_lt hn)).1 (ix1 d) = _
    rw [pay8_apply, acc_sx c d n (Nat.lt_of_succ_lt hn), slice_sx, psum_succ _ n (by have e : cfg0.N = 32 := N_0; omega)]

/-- After point `n` the second row holds, per channel, the masked sums of squares of the batches `0 … n` added up. -/
theorem acc_sq (c : Dev nD) (d : Fin 256) : ∀ (n : ℕ) (hn : n < cfg0.N),
    (accAt V c n hn).2.1 (ix1 d) = ∑ b : Fin 32, if b.val ≤ n then tQ V c d b else 0
  | 0, hn => by
    rw [accAt_zero]
    show k0_pay9 (xb0 V c ⟨0, hn⟩) (nb0 V c ⟨0, hn⟩) (k0_pay3 (F := Ideal)) (ix1 d) = _
    rw [pay9_apply, pay3_apply, zero_add, psum_zero, slice_sq]
    exact congrArg (tQ V c d) (Fin.ext rfl)
  | n + 1, hn => by
    rw [accAt_succ]
    show k0_pay9 (xb0 V c ⟨n + 1, hn⟩) (nb0 V c ⟨n + 1, hn⟩) (accAt V c n (Nat.lt_of_succ_lt hn)).2.1 (ix1 d) = _
    rw [pay9_apply, acc_sq c d n (Nat.lt_of_succ_lt hn), slice_sq, psum_succ _ n (by have e : cfg0.N = 32 := N_0; omega)]

/-- After point `n` every lane of the third row holds the kept-pixel counts of the batches `0 … n` added up. -/
theorem acc_cnt (c : Dev nD) (l : Fin 128) : ∀ (n : ℕ) (hn : n < cfg0.N),
    (accAt V c n hn).2.2 (ix1 l) = ∑ b : Fin 32, if b.val ≤ n then tC V c b else 0
  | 0, hn => by
    rw [accAt_zero]
    show k0_pay1 (k0_pay10 (nb0 V c ⟨0, hn⟩) (k0_pay4 (F := Ideal))) (ix1 l) = _
    rw [pay10_apply, pay4_apply, zero_add, psum_zero, slice_cnt]
    exact congrArg (tC V c) (Fin.ext rfl)
  | n + 1, hn => by
    rw [accAt_succ]
    show k0_pay1 (k0_pay10 (nb0 V c ⟨n + 1, hn⟩) (accAt V c n (Nat.lt_of_succ_lt hn)).2.2) (ix1 l) = _
    rw [pay10_apply, acc_cnt c l n (Nat.lt_of_succ_lt hn), slice_cnt, psum_succ _ n (by have e : cfg0.N = 32 := N_0; omega)]

/-! ## The three output arrays -/

/-- The last point of the grid. -/
abbrev tLast : Fin cfg0.N := ⟨31, by have e : cfg0.N = 32 := N_0; omega⟩

/-- A point whose number is 31 modulo 32 is the last one. -/
theorem eq_last_of_mod (t : Fin cfg0.N) (h : t.val % 32 = 31) : t = tLast :=
  Fin.ext (by have := t.isLt; have e : cfg0.N = 32 := N_0; show t.val = 31; omega)

/-- Each output's block is block 0 at every point. -/
theorem idx_o2 : ∀ t : Fin cfg0.N, win0_2.index t (0 : Fin 1) = 0 := (by decide +kernel : ∀ t : Fin grid0.N, _)
theorem idx_o3 : ∀ t : Fin cfg0.N, win0_3.index t (0 : Fin 1) = 0 := (by decide +kernel : ∀ t : Fin grid0.N, _)
theorem idx_o4 : ∀ t : Fin cfg0.N, win0_4.index t (0 : Fin 1) = 0 := (by decide +kernel : ∀ t : Fin grid0.N, _)

/-- The rows after the last point. -/
abbrev rowsEnd (c : Dev nD) : Rows Ideal := accAt V c 31 tLast.isLt

/-- A point that writes the channel sums back is the last one, and what it writes is the first row after the last
    point, read as block 0 of itself: a block of the array's own size at offset zero is the array. -/
theorem flushed_sx (c : Dev nD) (t : Fin cfg0.N) (hf : (cfg0.win 2).flush t = true) :
    (dat0 V c).flushed 2 t = ((cfg0.win 2).blk t).view.read (Elt Ideal) (rowsEnd V c).1 := by
  obtain rfl : t = tLast := eq_last_of_mod t ((flush0_2 t).mp hf)
  show (cfg0.win 2).cut (grid0.coords tLast) ((dat0 V c).after 2 tLast) = _
  rw [after0_2]
  funext j
  rw [View.read_apply]
  show (rowsEnd V c).1 _ = (rowsEnd V c).1 _
  refine congrArg (rowsEnd V c).1 (funext fun a => Fin.ext ?_)
  match a with
  | ⟨0, _⟩ => show (j 0).val = win0_2.index tLast (0 : Fin 1) * 256 + 1 * (j 0).val; rw [idx_o2]; omega

/-- Every index of the channel-sum array lies in the block the last point writes back. -/
theorem cover_sx (i : S256.Idx) : ∃ t : Fin cfg0.N, (cfg0.win 2).flush t = true ∧ i ∈ ((cfg0.win 2).blk t).view.set := by
  refine ⟨tLast, (flush0_2 tLast).mpr rfl, ?_⟩
  show i ∈ ((View.whole main_v2_0).slice (win0_2.rect tLast)).set
  rw [View.set_slice_whole, Rect.mem_set_unit]
  intro a
  match a with
  | ⟨0, _⟩ =>
    show win0_2.index tLast (0 : Fin 1) * 256 ≤ (i 0).val ∧ (i 0).val < win0_2.index tLast (0 : Fin 1) * 256 + 256
    have hi : (i 0).val < 256 := (i 0).isLt
    rw [idx_o2]; omega

/-- So the channel-sum array ends as the first row after the last point. -/
theorem arr_sx (c : Dev nD) : (dat0 V c).arrAt 2 cfg0.N = (rowsEnd V c).1 :=
  (dat0 V c).arrAt_eq_of_cover 2 (rowsEnd V c).1 (flushed_sx V c) cover_sx

/-- The channel-sum array, at channel `d`, is the specification's masked sum over all batches and pixels. -/
theorem out_sx (c : Dev nD) (d : Fin 256) :
    ((dat0 V c).arrAt 2 cfg0.N : S256.Idx → EReal) (ix1 d) = Cert.MBN.sx (V c main_arg0) (V c main_v1) d :=
  (congrFun (arr_sx V c) (ix1 d)).trans ((acc_sx V c d 31 tLast.isLt).trans (psum_last _))

/-- The same three steps for the array of sums of squares … -/
theorem flushed_sq (c : Dev nD) (t : Fin cfg0.N) (hf : (cfg0.win 3).flush t = true) :
    (dat0 V c).flushed 3 t = ((cfg0.win 3).blk t).view.read (Elt Ideal) (rowsEnd V c).2.1 := by
  obtain rfl : t = tLast := eq_last_of_mod t ((flush0_3 t).mp hf)
  show (cfg0.win 3).cut (grid0.coords tLast) ((dat0 V c).after 3 tLast) = _
  rw [after0_3]
  funext j
  rw [View.read_apply]
  show (rowsEnd V c).2.1 _ = (rowsEnd V c).2.1 _
  refine congrArg (rowsEnd V c).2.1 (funext fun a => Fin.ext ?_)
  match a with
  | ⟨0, _⟩ => show (j 0).val = win0_3.index tLast (0 : Fin 1) * 256 + 1 * (j 0).val; rw [idx_o3]; omega

theorem cover_sq (i : S256.Idx) : ∃ t : Fin cfg0.N, (cfg0.win 3).flush t = true ∧ i ∈ ((cfg0.win 3).blk t).view.set := by
  refine ⟨tLast, (flush0_3 tLast).mpr rfl, ?_⟩
  show i ∈ ((View.whole main_v2_1).slice (win0_3.rect tLast)).set
  rw [View.set_slice_whole, Rect.mem_set_unit]
  intro a
  match a with
  | ⟨0, _⟩ =>
    show win0_3.index tLast (0 : Fin 1) * 256 ≤ (i 0).val ∧ (i 0).val < win0_3.index tLast (0 : Fin 1) * 256 + 256
    have hi : (i 0).val < 256 := (i 0).isLt
    rw [idx_o3]; omega

theorem arr_sq (c : Dev nD) : (dat0 V c).arrAt 3 cfg0.N = (rowsEnd V c).2.1 :=
  (dat0 V c).arrAt_eq_of_cover 3 (rowsEnd V c).2.1 (flushed_sq V c) cover_sq

/-- The array of sums of squares, at channel `d`, is the specification's masked sum of squares. -/
theorem out_sq (c : Dev nD) (d : Fin 256) :
    ((dat0 V c).arrAt 3 cfg0.N : S256.Idx → EReal) (ix1 d) = Cert.MBN.sq (V c main_arg0) (V c main_v1) d :=
  (congrFun (arr_sq V c) (ix1 d)).trans ((acc_sq V c d 31 tLast.isLt).trans (psum_last _))

/-- … and for the 128-lane count array. -/
theorem flushed_cnt (c : Dev nD) (t : Fin cfg0.N) (hf : (cfg0.win 4).flush t = true) :
    (dat0 V c).flushed 4 t = ((cfg0.win 4).blk t).view.read (Elt Ideal) (rowsEnd V c).2.2 := by
  obtain rfl : t = tLast := eq_last_of_mod t ((flush0_4 t).mp hf)
  show (cfg0.win 4).cut (grid0.coords tLast) ((dat0 V c).after 4 tLast) = _
  rw [after0_4]
  funext j
  rw [View.read_apply]
  show (rowsEnd V c).2.2 _ = (rowsEnd V c).2.2 _
  refine congrArg (rowsEnd V c).2.2 (funext fun a => Fin.ext ?_)
  match a with
  | ⟨0, _⟩ => show (j 0).val = win0_4.index tLast (0 : Fin 1) * 128 + 1 * (j 0).val; rw [idx_o4]; omega

theorem cover_cnt (i : S128.Idx) : ∃ t : Fin cfg0.N, (cfg0.win 4).flush t = true ∧ i ∈ ((cfg0.win 4).blk t).view.set := by
  refine ⟨tLast, (flush0_4 tLast).mpr rfl, ?_⟩
  show i ∈ ((View.whole main_v2_2).slice (win0_4.rect tLast)).set
  rw [View.set_slice_whole, Rect.mem_set_unit]
  intro a
  match a with
  | ⟨0, _⟩ =>
    show win0_4.index tLast (0 : Fin 1) * 128 ≤ (i 0).val ∧ (i 0).val < win0_4.index tLast (0 : Fin 1) * 128 + 128
    have hi : (i 0).val < 128 := (i 0).isLt
    rw [idx_o4]; omega

theorem arr_cnt (c : Dev nD) : (dat0 V c).arrAt 4 cfg0.N = (rowsEnd V c).2.2 :=
  (dat0 V c).arrAt_eq_of_cover 4 (rowsEnd V c).2.2 (flushed_cnt V c) cover_cnt

/-- Every lane of the count array is the specification's number of kept pixels. -/
theorem out_cnt (c : Dev nD) (l : Fin 128) :
    ((dat0 V c).arrAt 4 cfg0.N : S128.Idx → EReal) (ix1 l) = Cert.MBN.cnt (V c main_v1) :=
  (congrFun (arr_cnt V c) (ix1 l)).trans ((acc_cnt V c l 31 tLast.isLt).trans (psum_last _))

end Cert.KernelIdeal.H

end
-- ==== Proof.KI.Pay1.lean ====
/-
  The apply kernel's arithmetic, read at one element.

  The body takes a data slice [1, 256, 64, 64], a keep-mask slice [1, 1, 64, 64] and two per-channel rows [256];
  it drops the slices' unit axes, repeats the mask over the 256 channels and each row over the 64 × 64 pixels,
  and forms  x + nm · (x · (a − 1) + b)  pointwise, then puts the unit axis back.  At the element of channel
  `d` and pixel `(h, w)` that is the same expression of the four operands' elements at `(0, d, h, w)`,
  `(0, 0, h, w)`, `d` and `d`.
-/
import proofs.«115558_j17076789969318_1_alg».proof.Proof.Gen.KernelIdeal.Skeleton
import proofs.«115558_j17076789969318_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.H

open Cert.KernelIdeal Cert.KernelIdeal.Gen
open Idealize.ShloMosaic Idealize.ShloMosaic.ValueIdx

/-! ## The layout operations of the body, each at an index given by coordinates -/

/-- The data slice without its unit axis: element `(d, h, w)` is the slice's `(0, d, h, w)`. -/
theorem slice_x_apply (x : FVec Ideal S1x256x64x64 .f32) (d : Fin 256) (h w : Fin 64) :
    shapeCast S256x64x64 x shapeCasts_S1x256x64x64_S256x64x64 (ix3 d h w) = x (ix4 (0 : Fin 1) d h w) :=
  shapeCast_1abc_abc_apply x _ d h w

/-- The mask slice without its two unit axes: element `(h, w)` is the slice's `(0, 0, h, w)`. -/
theorem slice_n_apply (n : FVec Ideal S1x1x64x64 .f32) (h w : Fin 64) :
    shapeCast S64x64 n shapeCasts_S1x1x64x64_S64x64 (ix2 h w) = n (ix4 (0 : Fin 1) (0 : Fin 1) h w) :=
  shapeCast_apply n _ _ _ (by
    rw [Shape.rowMajor_val_four, Shape.rowMajor_val_two]
    show ((0 * 1 + 0) * 64 + h.val) * 64 + w.val = h.val * 64 + w.val
    omega)

/-- The mask repeated over the channels: at `(d, h, w)` it is the mask at `(h, w)`. -/
theorem mask_rep_apply (v : FVec Ideal S1x64x64 .f32) (d : Fin 256) (h w : Fin 64) :
    broadcastTo S256x64x64 v broadcasts_S1x64x64_S256x64x64 (ix3 d h w) = v (ix3 (0 : Fin 1) h w) :=
  broadcastTo_apply v _ (ix3 d h w) (ix3 (0 : Fin 1) h w) fun ax => by
    match ax with
    | ⟨0, _⟩ => rfl
    | ⟨1, _⟩ => rfl
    | ⟨2, _⟩ => rfl

/-- A per-channel row as a column [256, 1, 1]: at `(d, 0, 0)` it is the row at `d`. -/
theorem row_col_apply (a : FVec Ideal S256 .f32) (d : Fin 256) (u u' : Fin 1) :
    shapeCast S256x1x1 a shapeCasts_S256_S256x1x1 (ix3 d u u') = a (ix1 d) :=
  shapeCast_apply a _ _ _ (by
    have hu : u.val = 0 := by omega
    have hu' : u'.val = 0 := by omega
    rw [Shape.rowMajor_val_one, Shape.rowMajor_val_three]
    show d.val = (d.val * 1 + u.val) * 1 + u'.val
    omega)

/-- The column repeated over the pixels: at `(d, h, w)` it is the column at `(d, 0, 0)`. -/
theorem col_rep_apply (v : FVec Ideal S256x1x1 .f32) (d : Fin 256) (h w : Fin 64) :
    broadcastTo S256x64x64 v broadcasts_S256x1x1_S256x64x64 (ix3 d h w) = v (ix3 d (0 : Fin 1) (0 : Fin 1)) :=
  broadcastTo_apply v _ (ix3 d h w) (ix3 d (0 : Fin 1) (0 : Fin 1)) fun ax => by
    match ax with
    | ⟨0, _⟩ => rfl
    | ⟨1, _⟩ => rfl
    | ⟨2, _⟩ => rfl

/-! ## The payload at an element -/

/-- The body's result at channel `d`, pixel `(h, w)`:  x + nm · (x · (a − 1) + b)  of the operands' elements. -/
theorem pay1_apply (x : Vec Ideal S1x256x64x64 .f32) (n : Vec Ideal S1x1x64x64 .f32) (a b : Vec Ideal S256 .f32)
    (d : Fin 256) (h w : Fin 64) :
    k1_pay1 x n a b (ix4 (0 : Fin 1) d h w)
      = x (ix4 (0 : Fin 1) d h w) + n (ix4 (0 : Fin 1) (0 : Fin 1) h w)
          * (x (ix4 (0 : Fin 1) d h w) * (a (ix1 d) - Cert.MBN.one) + b (ix1 d)) := by
  unfold k1_pay1
  refine (shapeCast_abc_1abc_apply _ _ (0 : Fin 1) d h w).trans ?_
  simp only [addf_apply, mulf_apply, subf_apply, broadcast_apply, shapeCast_self]
  rw [slice_x_apply, mask_rep_apply, col_rep_apply, col_rep_apply, row_col_apply, row_col_apply,
    shapeCast_ab_1ab_apply, slice_n_apply]
  rfl

end Cert.KernelIdeal.H

end
-- ==== Proof.KI.Val1.lean ====
/-
  The apply region's output array, index by index, for any contents of the buffers when the region is entered.

  The region walks the 32 batch slices.  At point `t` it reads slice `t` of the data and of the keep-mask and the two
  whole per-channel rows, and writes back, as slice `t` of the output, the pointwise expression
  x + nm · (x · (a − 1) + b)  of them.  Every slice is written once, so the output array ends holding that
  expression of the data, the mask and the two rows at every index `(b, d, h, w)`.
-/
import proofs.«115558_j17076789969318_1_alg».proof.Proof.KI.Fold
import proofs.«115558_j17076789969318_1_alg».proof.Proof.KI.Pay1
import Idealize.ShloMosaic.Lib.Pipeline.Value

noncomputable section

namespace Cert.KernelIdeal.H

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of a whole-buffer rectangle are zero on every axis. -/
theorem off4_zero : (![0, 0, 0, 0] : Fin 4 → Nat) = fun _ => 0 := funext fun a => by fin_cases a <;> rfl
theorem off1_zero : (![0] : Fin 1 → Nat) = fun _ => 0 := funext fun a => by fin_cases a <;> rfl

/-- The four arrays the region reads — data, keep-mask, scale row, shift row — as the region finds them, each at
    its literal type. -/
abbrev arrX (c : Dev nD) : S32x256x64x64.Idx → EReal := V c main_arg0
abbrev arrN (c : Dev nD) : S32x1x64x64.Idx → EReal := V c main_v1
abbrev arrA (c : Dev nD) : S256.Idx → EReal := V c main_v14
abbrev arrB (c : Dev nD) : S256.Idx → EReal := V c main_v16

/-! ## The output as one function of the four arrays -/

/-- The value at batch `b`, channel `d`, pixel `(h, w)`:  x + nm · (x · (a − 1) + b). -/
def yAt (X : S32x256x64x64.Idx → EReal) (N : S32x1x64x64.Idx → EReal) (A B : S256.Idx → EReal)
    (b : Fin 32) (d : Fin 256) (h w : Fin 64) : EReal :=
  X (ix4 b d h w) + N (ix4 b (0 : Fin 1) h w) * (X (ix4 b d h w) * (A (ix1 d) - Cert.MBN.one) + B (ix1 d))

/-- The whole output array: `yAt` at the index's four coordinates. -/
def yArr (X : S32x256x64x64.Idx → EReal) (N : S32x1x64x64.Idx → EReal) (A B : S256.Idx → EReal) :
    S32x256x64x64.Idx → EReal := fun i => yAt X N A B (i 0) (i 1) (i 2) (i 3)

/-! ## Where each window's block lies at a point -/

/-- At point `t` the data, mask and output windows are at block `t` along the batch axis and block 0 along
    every other; the two row windows are at block 0. -/
theorem idx_facts1 : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ win1_2.index t (0 : Fin 1) = 0
    ∧ win1_3.index t (0 : Fin 1) = 0
    ∧ (win1_4.index t (0 : Fin 4) = t.val ∧ win1_4.index t (1 : Fin 4) = 0 ∧ win1_4.index t (2 : Fin 4) = 0 ∧ win1_4.index t (3 : Fin 4) = 0) :=
  (by decide +kernel : ∀ t : Fin grid1.N, _)

/-- The data window's block at point `t` is batch slice `t` of the data array. -/
theorem blk_x (c : Dev nD) (t : Fin cfg1.N) (u : Fin 1) (d : Fin 256) (h w : Fin 64) (b : Fin 32) (hb : b.val = t.val) :
    (iblk1 V c 0 t : S1x256x64x64.Idx → EReal) (ix4 u d h w) = (V c main_arg0 : S32x256x64x64.Idx → EReal) (ix4 b d h w) := by
  obtain ⟨⟨e0, e1, e2, e3⟩, -⟩ := idx_facts1 t
  have hu : u.val = 0 := by omega
  unfold iblk1
  rw [View.read_apply]
  show (V c main_arg0 : S32x256x64x64.Idx → EReal) _ = _
  congr 1
  funext a
  apply Fin.ext
  match a with
  | ⟨0, _⟩ => show win1_0.index t (0 : Fin 4) * 1 + 1 * u.val = b.val; omega
  | ⟨1, _⟩ => show win1_0.index t (1 : Fin 4) * 256 + 1 * d.val = d.val; omega
  | ⟨2, _⟩ => show win1_0.index t (2 : Fin 4) * 64 + 1 * h.val = h.val; omega
  | ⟨3, _⟩ => show win1_0.index t (3 : Fin 4) * 64 + 1 * w.val = w.val; omega

/-- The mask window's block at point `t` is batch slice `t` of the mask array. -/
theorem blk_n (c : Dev nD) (t : Fin cfg1.N) (u u' : Fin 1) (h w : Fin 64) (b : Fin 32) (hb : b.val = t.val) :
    (iblk1 V c 1 t : S1x1x64x64.Idx → EReal) (ix4 u u' h w) = (V c main_v1 : S32x1x64x64.Idx → EReal) (ix4 b (0 : Fin 1) h w) := by
  obtain ⟨-, ⟨e0, e1, e2, e3⟩, -⟩ := idx_facts1 t
  have hu : u.val = 0 := by omega
  have hu' : u'.val = 0 := by omega
  unfold iblk1
  rw [View.read_apply]
  show (V c main_v1 : S32x1x64x64.Idx → EReal) _ = _
  congr 1
  funext a
  apply Fin.ext
  match a with
  | ⟨0, _⟩ => show win1_1.index t (0 : Fin 4) * 1 + 1 * u.val = b.val; omega
  | ⟨1, _⟩ => show win1_1.index t (1 : Fin 4) * 1 + 1 * u'.val = 0; omega
  | ⟨2, _⟩ => show win1_1.index t (2 : Fin 4) * 64 + 1 * h.val = h.val; omega
  | ⟨3, _⟩ => show win1_1.index t (3 : Fin 4) * 64 + 1 * w.val = w.val; omega

/-- The scale window's block at every point is the whole scale row. -/
theorem blk_a (c : Dev nD) (t : Fin cfg1.N) (d : Fin 256) :
    (iblk1 V c 2 t : S256.Idx → EReal) (ix1 d) = (V c main_v14 : S256.Idx → EReal) (ix1 d) := by
  obtain ⟨-, -, e0, -⟩ := idx_facts1 t
  unfold iblk1
  rw [View.read_apply]
  show (V c main_v14 : S256.Idx → EReal) _ = _
  congr 1
  funext a
  apply Fin.ext
  match a with
  | ⟨0, _⟩ => show win1_2.index t (0 : Fin 1) * 256 + 1 * d.val = d.val; omega

/-- The shift window's block at every point is the whole shift row. -/
theorem blk_b (c : Dev nD) (t : Fin cfg1.N) (d : Fin 256) :
    (iblk1 V c 3 t : S256.Idx → EReal) (ix1 d) = (V c main_v16 : S256.Idx → EReal) (ix1 d) := by
  obtain ⟨-, -, -, e0, -⟩ := idx_facts1 t
  unfold iblk1
  rw [View.read_apply]
  show (V c main_v16 : S256.Idx → EReal) _ = _
  congr 1
  funext a
  apply Fin.ext
  match a with
  | ⟨0, _⟩ => show win1_3.index t (0 : Fin 1) * 256 + 1 * d.val = d.val; omega

/-- Element `(u, d, h, w)` of the output window's block at point `t` sits at array index `(t, d, h, w)`. -/
theorem blk_y_emb (t : Fin cfg1.N) (u : Fin 1) (d : Fin 256) (h w : Fin 64) (b : Fin 32) (hb : b.val = t.val) :
    (((cfg1.win 4).blk t).view.emb (ix4 u d h w) : S32x256x64x64.Idx) = ix4 b d h w := by
  obtain ⟨-, -, -, -, e0, e1, e2, e3⟩ := idx_facts1 t
  have hu : u.val = 0 := by omega
  funext a
  apply Fin.ext
  match a with
  | ⟨0, _⟩ => show win1_4.index t (0 : Fin 4) * 1 + 1 * u.val = b.val; omega
  | ⟨1, _⟩ => show win1_4.index t (1 : Fin 4) * 256 + 1 * d.val = d.val; omega
  | ⟨2, _⟩ => show win1_4.index t (2 : Fin 4) * 64 + 1 * h.val = h.val; omega
  | ⟨3, _⟩ => show win1_4.index t (3 : Fin 4) * 64 + 1 * w.val = w.val; omega

/-! ## What a point writes back, and the array after the last point -/

/-- Point `t` writes back slice `t` of `yArr` of the four arrays as the region finds them. -/
theorem flushed_y (c : Dev nD) (t : Fin cfg1.N) :
    (dat1 V c).flushed 4 t
      = ((cfg1.win 4).blk t).view.read (Elt Ideal)
          (yArr (arrX V c) (arrN V c) (arrA V c) (arrB V c)) := by
  show (cfg1.win 4).cut (grid1.coords t) ((dat1 V c).after 4 t) = _
  rw [after1_4]
  unfold out1
  rw [View.canon_unit_zero off4_zero]
  simp only [View.ld_unit_zero (S := S1x256x64x64) off4_zero, View.ld_unit_zero (S := S1x1x64x64) off4_zero,
    View.ld_unit_zero (S := S256) off1_zero]
  refine funext fun (y : S1x256x64x64.Idx) => ?_
  obtain ⟨u, d, h, w, rfl⟩ : ∃ (u : Fin 1) (d : Fin 256) (h w : Fin 64), y = ix4 u d h w :=
    ⟨y 0, y 1, y 2, y 3, eq_ix4 y⟩
  have hN : grid1.N = 32 := N_1
  have ht : t.val < 32 := lt_of_lt_of_eq t.isLt hN
  have hx : (win1_4.xinj (grid1.coords t) (ix4 u d h w) : S1x256x64x64.Idx) = ix4 (0 : Fin 1) d h w := by
    have hu : u.val = 0 := by omega
    funext a
    apply Fin.ext
    match a with
    | ⟨0, _⟩ => exact hu
    | ⟨1, _⟩ => rfl
    | ⟨2, _⟩ => rfl
    | ⟨3, _⟩ => rfl
  show k1_pay1 (iblk1 V c 0 t) (iblk1 V c 1 t) (iblk1 V c 2 t) (iblk1 V c 3 t) (win1_4.xinj (grid1.coords t) (ix4 u d h w)) = _
  rw [hx, pay1_apply, View.read_apply, blk_y_emb t u d h w ⟨t.val, ht⟩ rfl,
    blk_x V c t 0 d h w ⟨t.val, ht⟩ rfl, blk_n V c t 0 0 h w ⟨t.val, ht⟩ rfl, blk_a V c t d, blk_b V c t d]
  rfl

/-- Every index of the output array lies in the slice of the point named by its batch coordinate, and every point
    writes back. -/
theorem cover_y (i : S32x256x64x64.Idx) :
    ∃ t : Fin cfg1.N, (cfg1.win 4).flush t = true ∧ i ∈ ((cfg1.win 4).blk t).view.set := by
  have hi0 : (i 0).val < 32 := (i 0).isLt
  have hi1 : (i 1).val < 256 := (i 1).isLt
  have hi2 : (i 2).val < 64 := (i 2).isLt
  have hi3 : (i 3).val < 64 := (i 3).isLt
  have hN : grid1.N = 32 := N_1
  obtain ⟨t, ht⟩ : ∃ t : Fin cfg1.N, t.val = (i 0).val := ⟨⟨(i 0).val, lt_of_lt_of_eq hi0 hN.symm⟩, rfl⟩
  refine ⟨t, flush1_4 t, ?_⟩
  obtain ⟨-, -, -, -, e0, e1, e2, e3⟩ := idx_facts1 t
  show i ∈ ((View.whole main_v17).slice (win1_4.rect t)).set
  rw [View.set_slice_whole, Rect.mem_set_unit]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 256 ≤ (i 1).val ∧ (i 1).val < win1_4.index t (1 : Fin 4) * 256 + 256; omega
  | ⟨2, _⟩ => show win1_4.index t (2 : Fin 4) * 64 ≤ (i 2).val ∧ (i 2).val < win1_4.index t (2 : Fin 4) * 64 + 64; omega
  | ⟨3, _⟩ => show win1_4.index t (3 : Fin 4) * 64 ≤ (i 3).val ∧ (i 3).val < win1_4.index t (3 : Fin 4) * 64 + 64; omega

/-- The output array after the last point is `yArr` of the four arrays as the region finds them. -/
theorem out_arr (c : Dev nD) :
    (dat1 V c).arrAt 4 cfg1.N
      = yArr (arrX V c) (arrN V c) (arrA V c) (arrB V c) :=
  (dat1 V c).arrAt_eq_of_cover 4 _ (fun t _ => flushed_y V c t) cover_y

/-- The output array at batch `b`, channel `d`, pixel `(h, w)`. -/
theorem out_y (c : Dev nD) (b : Fin 32) (d : Fin 256) (h w : Fin 64) :
    ((dat1 V c).arrAt 4 cfg1.N : S32x256x64x64.Idx → EReal) (ix4 b d h w)
      = arrX V c (ix4 b d h w) + arrN V c (ix4 b (0 : Fin 1) h w)
          * (arrX V c (ix4 b d h w) * (arrA V c (ix1 d) - Cert.MBN.one) + arrB V c (ix1 d)) := by
  rw [out_arr V c]
  rfl

/-- The same with the four arrays named by the caller: `X`, `N`, `A`, `B` are what the region finds in the data,
    mask, scale and shift arrays. -/
theorem out_y_of (c : Dev nD) (X : S32x256x64x64.Idx → EReal) (N : S32x1x64x64.Idx → EReal) (A B : S256.Idx → EReal)
    (hX : arrX V c = X) (hN : arrN V c = N) (hA : arrA V c = A) (hB : arrB V c = B)
    (b : Fin 32) (d : Fin 256) (h w : Fin 64) :
    ((dat1 V c).arrAt 4 cfg1.N : S32x256x64x64.Idx → EReal) (ix4 b d h w)
      = X (ix4 b d h w) + N (ix4 b (0 : Fin 1) h w) * (X (ix4 b d h w) * (A (ix1 d) - Cert.MBN.one) + B (ix1 d)) := by
  rw [out_y V c b d h w, hX, hN, hA, hB]

end Cert.KernelIdeal.H

end
-- ==== Proof.KI.ValHost.lean ====
/-
  What the two host stretches of the masked batch-norm program compute, over the extended reals.

  The first stretch turns the exclusion mask into the keep-mask: the bit is flipped and read as a number, so a
  kept pixel carries 1 and an excluded one 0.  The second stretch takes the three rows the statistics region
  leaves (per-channel masked sum, per-channel masked sum of squares, the count of kept pixels in every lane)
  and forms, per channel, the mean, the variance as mean of squares minus squared mean, the factor
  gamma / sqrt (variance + eps), and the offset beta - mean * factor.
-/
import proofs.«115558_j17076789969318_1_alg».proof.Proof.KI.Fold
import proofs.«115558_j17076789969318_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.ShloMosaic.ValueIdx

variable (m : (ℓ : Loc nD τ sig) → Buf (Elt Ideal) ℓ)

/-! ## The first stretch: the keep-mask -/

theorem V1_main_v1 (c : Dev nD) :
    (V1 m c main_v1 : S32x1x64x64.Idx → EReal) = Cert.MBN.nmOf (m ((c : Thread nD τ).loc main_arg1)) := by
  show StableHlo.after hostOps0 (W0 m c) (Proc.devRef .tc main_v1) = _
  after_results
  rfl

/-- The keep-mask is an input window of the statistics region and no result of the second stretch. -/
theorem V3_main_v1 (c : Dev nD) : V3 m c main_v1 = V1 m c main_v1 :=
  (W3_keep m c main_v1 (by decide)).trans (((W2_arr m c 1).trans ((dat0 (V1 m) c).arrAt_in 1 rfl _)).trans (A_eq0 (V1 m) c 1))

theorem V3_main_arg0 (c : Dev nD) : V3 m c main_arg0 = m ((c : Thread nD τ).loc main_arg0) := W3_main_arg0 m c
theorem V1_main_arg0 (c : Dev nD) : V1 m c main_arg0 = m ((c : Thread nD τ).loc main_arg0) := W1_main_arg0 m c

/-! ## The second stretch: mean, variance, factor, offset -/

namespace VH

/-- Lane 0 of the count row, as a scalar, spread over the 256 channels. -/
def cntB (s2 : FVec Ideal S128 .f32) : FVec Ideal S256 .f32 :=
  broadcastInDim S256 ![] bcast_S_S256 (fun i => shapeCast S_ (extractStridedSlice S1 ![0] s2 slices_S128_S1_0) shapeCasts_S1_S_ i)

theorem cntB_apply (s2 : FVec Ideal S128 .f32) (d : Fin 256) : cntB s2 (ix1 d) = s2 (ix1 (0 : Fin 128)) := by
  unfold cntB broadcastInDim
  show shapeCast S_ (extractStridedSlice S1 ![0] s2 slices_S128_S1_0) shapeCasts_S1_S_ _ = _
  unfold shapeCast
  refine extractStridedSlice_apply _ _ _ _ (ix1 (0 : Fin 128)) fun a => ?_
  match a with
  | ⟨0, _⟩ =>
    generalize (Shape.reshapeEquiv shapeCasts_S1_S_) _ = j
    generalize j _ = q
    have hq : q.val < 1 := q.isLt
    show (0 : ℕ) = 0 + q.val
    omega

/-- The per-channel mean row and factor row as the second stretch forms them. -/
def meanRow (s0 : FVec Ideal S256 .f32) (s2 : FVec Ideal S128 .f32) : FVec Ideal S256 .f32 := Host.divf s0 (cntB s2)
def scaleRow (g s0 s1 : FVec Ideal S256 .f32) (s2 : FVec Ideal S128 .f32) : FVec Ideal S256 .f32 :=
  Host.divf g (Host.sqrt (addf (subf (Host.divf s1 (cntB s2)) (mulf (meanRow s0 s2) (meanRow s0 s2)))
    (broadcastInDim S256 ![] bcast_S_S256 (constant (F := Ideal) S_ .f32 0x3727C5AC#32))))

theorem meanRow_apply (s0 : FVec Ideal S256 .f32) (s2 : FVec Ideal S128 .f32) (d : Fin 256) :
    meanRow s0 s2 (ix1 d) = Ideal.div (s0 (ix1 d)) (s2 (ix1 (0 : Fin 128))) := by
  show Ideal.div (s0 (ix1 d)) (cntB s2 (ix1 d)) = _
  rw [cntB_apply]

theorem scaleRow_apply (g s0 s1 : FVec Ideal S256 .f32) (s2 : FVec Ideal S128 .f32) (d : Fin 256) :
    scaleRow g s0 s1 s2 (ix1 d)
      = Ideal.div (g (ix1 d)) (Ideal.sqrt ((Ideal.div (s1 (ix1 d)) (s2 (ix1 (0 : Fin 128)))
          - Ideal.div (s0 (ix1 d)) (s2 (ix1 (0 : Fin 128))) * Ideal.div (s0 (ix1 d)) (s2 (ix1 (0 : Fin 128)))) + Cert.MBN.eps)) := by
  show Ideal.div (g (ix1 d)) (Ideal.sqrt ((Ideal.div (s1 (ix1 d)) (cntB s2 (ix1 d))
          - meanRow s0 s2 (ix1 d) * meanRow s0 s2 (ix1 d)) + Cert.MBN.eps)) = _
  rw [cntB_apply, meanRow_apply]

/-- The per-channel scale and offset arguments are untouched by the first stretch and the statistics region. -/
theorem W2_main_arg2 (c : Dev nD) : W2 m c (Proc.devRef .tc main_arg2) = m ((c : Thread nD τ).loc main_arg2) :=
  (W2_of_ne m c main_arg2 (by decide)).trans (W1_keep m c main_arg2 (by decide))
theorem W2_main_arg3 (c : Dev nD) : W2 m c (Proc.devRef .tc main_arg3) = m ((c : Thread nD τ).loc main_arg3) :=
  (W2_of_ne m c main_arg3 (by decide)).trans (W1_keep m c main_arg3 (by decide))

theorem V3_main_v14 (c : Dev nD) :
    (V3 m c main_v14 : S256.Idx → EReal)
      = scaleRow (m ((c : Thread nD τ).loc main_arg2)) (V2 m c main_v2_0) (V2 m c main_v2_1) (V2 m c main_v2_2) := by
  rw [← W2_main_arg2 m c]
  show StableHlo.after hostOps1 (W2 m c) (Proc.devRef .tc main_v14) = _
  after_results
  rfl

theorem V3_main_v16 (c : Dev nD) :
    (V3 m c main_v16 : S256.Idx → EReal)
      = subf (m ((c : Thread nD τ).loc main_arg3)) (mulf (meanRow (V2 m c main_v2_0) (V2 m c main_v2_2)) (V3 m c main_v14)) := by
  rw [V3_main_v14 m c, ← W2_main_arg2 m c, ← W2_main_arg3 m c]
  show StableHlo.after hostOps1 (W2 m c) (Proc.devRef .tc main_v16) = _
  after_results
  rfl

end VH

open VH

theorem V3_scale (c : Dev nD) (d : Fin 256) (sxv sqv cntv : EReal)
    (h0 : (V2 m c main_v2_0 : S256.Idx → EReal) (ix1 d) = sxv) (h1 : (V2 m c main_v2_1 : S256.Idx → EReal) (ix1 d) = sqv)
    (h2 : (V2 m c main_v2_2 : S128.Idx → EReal) (ix1 (0 : Fin 128)) = cntv) :
    (V3 m c main_v14 : S256.Idx → EReal) (ix1 d)
      = Ideal.div ((m ((c : Thread nD τ).loc main_arg2) : S256.Idx → EReal) (ix1 d))
          (Ideal.sqrt ((Ideal.div sqv cntv - Ideal.div sxv cntv * Ideal.div sxv cntv) + Cert.MBN.eps)) := by
  rw [V3_main_v14 m c, scaleRow_apply, h0, h1, h2]

theorem V3_shift (c : Dev nD) (d : Fin 256) (sxv cntv : EReal)
    (h0 : (V2 m c main_v2_0 : S256.Idx → EReal) (ix1 d) = sxv)
    (h2 : (V2 m c main_v2_2 : S128.Idx → EReal) (ix1 (0 : Fin 128)) = cntv) :
    (V3 m c main_v16 : S256.Idx → EReal) (ix1 d)
      = @HSub.hSub EReal EReal EReal instHSub ((m ((c : Thread nD τ).loc main_arg3) : S256.Idx → EReal) (ix1 d))
          (@HMul.hMul EReal EReal EReal instHMul (Ideal.div sxv cntv) ((V3 m c main_v14 : S256.Idx → EReal) (ix1 d))) := by
  rw [V3_main_v16 m c, subf_apply, mulf_apply, meanRow_apply, h0, h2]

/-- The same with the offset argument's entry and the factor's entry named. -/
theorem V3_shift_vals (c : Dev nD) (d : Fin 256) (sxv cntv bev av : EReal)
    (h0 : (V2 m c main_v2_0 : S256.Idx → EReal) (ix1 d) = sxv)
    (h2 : (V2 m c main_v2_2 : S128.Idx → EReal) (ix1 (0 : Fin 128)) = cntv)
    (hb : (m ((c : Thread nD τ).loc main_arg3) : S256.Idx → EReal) (ix1 d) = bev)
    (ha : (V3 m c main_v14 : S256.Idx → EReal) (ix1 d) = av) :
    (V3 m c main_v16 : S256.Idx → EReal) (ix1 d) = bev - Ideal.div sxv cntv * av := by
  rw [V3_shift m c d sxv cntv h0 h2, hb, ha]

end Cert.KernelIdeal.H

end
-- ==== Proof.KI.KernelValue.lean ====
/-
  The kernel program's result array, entry by entry, is the specification's kernel form `Kval` of the four
  arguments: the statistics region leaves the masked sums, the host stretch between the regions turns them into the
  per-channel factor and shift, and the apply region writes `x + nm · (x · (factor − 1) + shift)`.
-/
import proofs.«115558_j17076789969318_1_alg».proof.Proof.KI.Val0
import proofs.«115558_j17076789969318_1_alg».proof.Proof.KI.Val1
import proofs.«115558_j17076789969318_1_alg».proof.Proof.KI.ValHost
import proofs.«115558_j17076789969318_1_alg».proof.Proof.Spec

noncomputable section

namespace Cert.KernelIdeal.H

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The four arguments on core `c`, at their literal types. -/
abbrev xM (c : Dev nD) : S32x256x64x64.Idx → EReal := m ((c : Thread nD τ).loc main_arg0)
abbrev kM (c : Dev nD) : S32x1x64x64.Idx → BitVec 1 := m ((c : Thread nD τ).loc main_arg1)
abbrev gM (c : Dev nD) : S256.Idx → EReal := m ((c : Thread nD τ).loc main_arg2)
abbrev bM (c : Dev nD) : S256.Idx → EReal := m ((c : Thread nD τ).loc main_arg3)

/-! ## What the statistics region leaves, in terms of the arguments -/

theorem V2_sx (c : Dev nD) (d : Fin 256) :
    (V2 m c main_v2_0 : S256.Idx → EReal) (ix1 d) = Cert.MBN.sx (xM m c) (Cert.MBN.nmOf (kM m c)) d := by
  have h := out_sx (V1 m) c d
  rw [V1_main_arg0 m c, V1_main_v1 m c] at h
  exact (congrFun (W2_arr m c 2) (ix1 d)).trans h

theorem V2_sq (c : Dev nD) (d : Fin 256) :
    (V2 m c main_v2_1 : S256.Idx → EReal) (ix1 d) = Cert.MBN.sq (xM m c) (Cert.MBN.nmOf (kM m c)) d := by
  have h := out_sq (V1 m) c d
  rw [V1_main_arg0 m c, V1_main_v1 m c] at h
  exact (congrFun (W2_arr m c 3) (ix1 d)).trans h

theorem V2_cnt (c : Dev nD) (l : Fin 128) :
    (V2 m c main_v2_2 : S128.Idx → EReal) (ix1 l) = Cert.MBN.cnt (Cert.MBN.nmOf (kM m c)) := by
  have h := out_cnt (V1 m) c l
  rw [V1_main_v1 m c] at h
  exact (congrFun (W2_arr m c 4) (ix1 l)).trans h

/-! ## The factor and the shift the apply region is handed -/

theorem V3_kinv (c : Dev nD) (d : Fin 256) :
    (V3 m c main_v14 : S256.Idx → EReal) (ix1 d) = Cert.MBN.kinv (xM m c) (Cert.MBN.nmOf (kM m c)) (gM m c) d :=
  V3_scale m c d _ _ _ (V2_sx m c d) (V2_sq m c d) (V2_cnt m c 0)

theorem V3_kshift (c : Dev nD) (d : Fin 256) :
    (V3 m c main_v16 : S256.Idx → EReal) (ix1 d) = Cert.MBN.kshift (xM m c) (Cert.MBN.nmOf (kM m c)) (gM m c) (bM m c) d :=
  V3_shift_vals m c d _ _ _ _ (V2_sx m c d) (V2_cnt m c 0) rfl (V3_kinv m c d)

/-! ## The result array -/

theorem kernel_apply (c : Dev nD) (b : Fin 32) (d : Fin 256) (h w : Fin 64) :
    (W4 m c (Proc.devRef .tc main_v17) : S32x256x64x64.Idx → EReal) (ix4 b d h w)
      = Cert.MBN.Kval (xM m c) (Cert.MBN.nmOf (kM m c)) (gM m c) (bM m c) b d h w := by
  have hX : arrX (V3 m) c = xM m c := V3_main_arg0 m c
  have hN : arrN (V3 m) c = Cert.MBN.nmOf (kM m c) := (V3_main_v1 m c).trans (V1_main_v1 m c)
  have hA : arrA (V3 m) c (ix1 d) = Cert.MBN.kinv (xM m c) (Cert.MBN.nmOf (kM m c)) (gM m c) d := V3_kinv m c d
  have hB : arrB (V3 m) c (ix1 d) = Cert.MBN.kshift (xM m c) (Cert.MBN.nmOf (kM m c)) (gM m c) (bM m c) d := V3_kshift m c d
  rw [W4_main_v17 m c, out_y (V3 m) c b d h w, hX, hN, hA, hB]
  rfl

end Cert.KernelIdeal.H

end
-- ==== Proof.RefVal.lean ====
/-
  The reference program's result, read at the index of batch `b`, channel `d`, pixel `(h, w)`: where the exclusion bit
  of that batch and pixel is set it is the datum itself, and elsewhere it is the specification's `Rval`, namely
  `(x - mean) · factor + offset` with the masked mean, the masked mean of squared deviations as variance, and the
  factor `scale / √(variance + ε)`.

  A sum over the batch and pixel axes into the channels, at channel `d`, runs over the operand indices that drop to `d`:
  exactly those whose channel coordinate is `d`, which correspond one to one to the triples `(b, h, w)`; the total sum
  of the keep-mask is likewise the triple sum over `(b, h, w)` (the mask's channel axis has one coordinate). Every other
  stage reads one element of each operand, and the stages are chained from the count up to the result.
-/
import proofs.«115558_j17076789969318_1_alg».proof.Proof.Gen.ReferenceIdeal.Read
import proofs.«115558_j17076789969318_1_alg».proof.Proof.Spec
import Idealize.ShloMosaic.Lib.ValueIdx
import Idealize.ShloMosaic.PureOps.Ideal.Laws
import Idealize.ShloMosaic.Lib.Pipeline.Value

noncomputable section

namespace Cert.ReferenceIdeal.RefValue

open Idealize.ShloMosaic Idealize.ShloMosaic.ValueIdx Cert.ReferenceIdeal Cert.ReferenceIdeal.Read

/-! ### Sums over index sets as sums over coordinates -/

/-- An index of the data drops, along the batch and pixel axes, to channel `d` exactly when its channel coordinate is `d`. -/
theorem drop_eq_iff (hr : S32x256x64x64.ReducesTo [0, 2, 3] S256) (i : S32x256x64x64.Idx) (d : Fin 256) :
    hr.drop i = Cert.MBN.ixC d ↔ i 1 = d := by
  have hv : (hr.drop i 0 : Nat) = i 1 := Shape.ReducesTo.drop_apply_val_of_eq hr i 0 1
  constructor
  · intro h
    have h0 : (hr.drop i 0 : Nat) = d.val := by rw [h]
    exact Fin.ext (hv.symm.trans h0)
  · intro h
    funext a
    match a with
    | ⟨0, _⟩ => exact Fin.ext (hv.trans (by rw [h]))

/-- The sum over the data indices that drop to channel `d` is the triple sum over batch and pixel coordinates. -/
theorem sum_drop (hr : S32x256x64x64.ReducesTo [0, 2, 3] S256) (f : S32x256x64x64.Idx → EReal) (d : Fin 256) :
    ∑ i ∈ Finset.univ.filter (fun i => hr.drop i = Cert.MBN.ixC d), f i
      = ∑ b : Fin 32, ∑ h : Fin 64, ∑ w : Fin 64, f (Cert.MBN.ixX b d h w) := by
  have e : ∑ b : Fin 32, ∑ h : Fin 64, ∑ w : Fin 64, f (Cert.MBN.ixX b d h w)
      = ∑ p : Fin 32 × Fin 64 × Fin 64, f (Cert.MBN.ixX p.1 d p.2.1 p.2.2) := by
    rw [Fintype.sum_prod_type]
    refine Finset.sum_congr rfl fun b _ => ?_
    rw [Fintype.sum_prod_type]
  rw [e]
  refine Finset.sum_nbij' (fun i => (i 0, i 2, i 3)) (fun p => Cert.MBN.ixX p.1 d p.2.1 p.2.2) ?_ ?_ ?_ ?_ ?_
  · intro i _; exact Finset.mem_univ _
  · intro p _
    rw [Finset.mem_filter]
    exact ⟨Finset.mem_univ _, (drop_eq_iff hr _ d).mpr rfl⟩
  · intro i hi
    rw [Finset.mem_filter] at hi
    have h1 : i 1 = d := (drop_eq_iff hr i d).mp hi.2
    funext a
    match a with
    | ⟨0, _⟩ => rfl
    | ⟨1, _⟩ => exact h1.symm
    | ⟨2, _⟩ => rfl
    | ⟨3, _⟩ => rfl
  · intro p _; rfl
  · intro i hi
    rw [Finset.mem_filter] at hi
    have h1 : i 1 = d := (drop_eq_iff hr i d).mp hi.2
    congr 1
    funext a
    match a with
    | ⟨0, _⟩ => rfl
    | ⟨1, _⟩ => exact h1
    | ⟨2, _⟩ => rfl
    | ⟨3, _⟩ => rfl

/-- A sum over every mask index is the triple sum over batch and pixel coordinates. -/
theorem sum_mask (f : S32x1x64x64.Idx → EReal) :
    ∑ j : S32x1x64x64.Idx, f j = ∑ b : Fin 32, ∑ h : Fin 64, ∑ w : Fin 64, f (Cert.MBN.ixM b h w) := by
  have e : ∑ b : Fin 32, ∑ h : Fin 64, ∑ w : Fin 64, f (Cert.MBN.ixM b h w)
      = ∑ p : Fin 32 × Fin 64 × Fin 64, f (Cert.MBN.ixM p.1 p.2.1 p.2.2) := by
    rw [Fintype.sum_prod_type]
    refine Finset.sum_congr rfl fun b _ => ?_
    rw [Fintype.sum_prod_type]
  rw [e]
  refine Finset.sum_nbij' (fun i => (i 0, i 2, i 3)) (fun p => Cert.MBN.ixM p.1 p.2.1 p.2.2) ?_ ?_ ?_ ?_ ?_
  · intro i _; exact Finset.mem_univ _
  · intro p _; exact Finset.mem_univ _
  · intro i _
    funext a
    match a with
    | ⟨0, _⟩ => rfl
    | ⟨1, _⟩ => exact @Subsingleton.elim (Fin 1) _ _ _
    | ⟨2, _⟩ => rfl
    | ⟨3, _⟩ => rfl
  · intro p _; rfl
  · intro i _
    congr 1
    funext a
    match a with
    | ⟨0, _⟩ => rfl
    | ⟨1, _⟩ => exact @Subsingleton.elim (Fin 1) _ _ _
    | ⟨2, _⟩ => rfl
    | ⟨3, _⟩ => rfl

/-- The sum over batch and pixel axes, from a zero initial value, at channel `d`. -/
theorem reduceAdd_channel (y : FVec Ideal S32x256x64x64 .f32) (c : FVec Ideal S_ .f32)
    (hr : S32x256x64x64.ReducesTo [0, 2, 3] S256) (hu : 0 < S_.numel) (hc : c (Shape.Idx.first hu) = 0) (d : Fin 256) :
    Host.reduceAdd (F := Ideal) y c hr hu (Cert.MBN.ixC d)
      = ∑ b : Fin 32, ∑ h : Fin 64, ∑ w : Fin 64, y (Cert.MBN.ixX b d h w) := by
  simp only [Host.reduceAdd, Ideal.hostReduceAdd_def]
  unfold Ideal.hostReduceAdd
  rw [hc, zero_add]
  exact sum_drop hr y d

/-! ### The broadcasts' index maps at coordinates -/

/-- The index of channel `d` in the per-channel arrays kept with unit batch and pixel axes. -/
abbrev ixR (d : Fin 256) : S1x256x1x1.Idx := ix4 (0 : Fin 1) d (0 : Fin 1) (0 : Fin 1)

theorem idx_v3_at (b : Fin 32) (d : Fin 256) (h w : Fin 64) : idx_main_v3 (Cert.MBN.ixX b d h w) = Cert.MBN.ixM b h w := by
  funext a; match a with | ⟨0, _⟩ => rfl | ⟨1, _⟩ => rfl | ⟨2, _⟩ => rfl | ⟨3, _⟩ => rfl
theorem idx_v12_at (b : Fin 32) (d : Fin 256) (h w : Fin 64) : idx_main_v12 (Cert.MBN.ixX b d h w) = Cert.MBN.ixM b h w := by
  funext a; match a with | ⟨0, _⟩ => rfl | ⟨1, _⟩ => rfl | ⟨2, _⟩ => rfl | ⟨3, _⟩ => rfl
theorem idx_call0_at (b : Fin 32) (d : Fin 256) (h w : Fin 64) : idx_main_call0_v0 (Cert.MBN.ixX b d h w) = Cert.MBN.ixM b h w := by
  funext a; match a with | ⟨0, _⟩ => rfl | ⟨1, _⟩ => rfl | ⟨2, _⟩ => rfl | ⟨3, _⟩ => rfl
theorem idx_v9_at (b : Fin 32) (d : Fin 256) (h w : Fin 64) : idx_main_v9 (Cert.MBN.ixX b d h w) = ixR d := by
  funext a; match a with | ⟨0, _⟩ => rfl | ⟨1, _⟩ => rfl | ⟨2, _⟩ => rfl | ⟨3, _⟩ => rfl
theorem idx_v23_at (b : Fin 32) (d : Fin 256) (h w : Fin 64) : idx_main_v23 (Cert.MBN.ixX b d h w) = ixR d := by
  funext a; match a with | ⟨0, _⟩ => rfl | ⟨1, _⟩ => rfl | ⟨2, _⟩ => rfl | ⟨3, _⟩ => rfl
theorem idx_v25_at (b : Fin 32) (d : Fin 256) (h w : Fin 64) : idx_main_v25 (Cert.MBN.ixX b d h w) = ixR d := by
  funext a; match a with | ⟨0, _⟩ => rfl | ⟨1, _⟩ => rfl | ⟨2, _⟩ => rfl | ⟨3, _⟩ => rfl
theorem idx_v28_at (b : Fin 32) (d : Fin 256) (h w : Fin 64) : idx_main_v28 (Cert.MBN.ixX b d h w) = ixR d := by
  funext a; match a with | ⟨0, _⟩ => rfl | ⟨1, _⟩ => rfl | ⟨2, _⟩ => rfl | ⟨3, _⟩ => rfl
theorem idx_v8_at (d : Fin 256) : idx_main_v8 (ixR d) = Cert.MBN.ixC d := by
  funext a; match a with | ⟨0, _⟩ => rfl
theorem idx_v17_at (d : Fin 256) : idx_main_v17 (ixR d) = Cert.MBN.ixC d := by
  funext a; match a with | ⟨0, _⟩ => rfl
theorem idx_v21_at (d : Fin 256) : idx_main_v21 (ixR d) = Cert.MBN.ixC d := by
  funext a; match a with | ⟨0, _⟩ => rfl
theorem idx_v27_at (d : Fin 256) : idx_main_v27 (ixR d) = Cert.MBN.ixC d := by
  funext a; match a with | ⟨0, _⟩ => rfl

/-! ### The stages -/

variable (x0 : FVec Ideal S32x256x64x64 .f32) (x1 : IVec S32x1x64x64 1) (x2 x3 : FVec Ideal S256 .f32)

/-- The converted complement of the exclusion bits is the keep-mask. -/
theorem nm_at (j : S32x1x64x64.Idx) : val_main_v1 (F := Ideal) x1 j = Cert.MBN.nmOf x1 j := rfl

/-- The total of the keep-mask is the count of kept pixels. -/
theorem cnt_at (i : S_.Idx) : val_main_v2 (F := Ideal) x1 i = Cert.MBN.cnt (Cert.MBN.nmOf x1) := by
  rw [val_main_v2_apply, val_main_cst_apply, Ideal.ofBits_def, Ideal.ofBits_zero_f32, zero_add, sum_mask]
  unfold Cert.MBN.cnt
  rfl

/-- The masked sum of channel `d`. -/
theorem sx_at (d : Fin 256) : val_main_v5 (F := Ideal) x0 x1 (Cert.MBN.ixC d) = Cert.MBN.sx x0 (Cert.MBN.nmOf x1) d := by
  unfold val_main_v5
  rw [reduceAdd_channel _ (val_main_cst_0 (F := Ideal)) _ _ ((val_main_cst_0_apply _).trans Ideal.ofBits_zero_f32)]
  unfold Cert.MBN.sx
  refine Finset.sum_congr rfl fun b _ => Finset.sum_congr rfl fun h _ => Finset.sum_congr rfl fun w _ => ?_
  rw [val_main_v4_apply, val_main_v3_apply, idx_v3_at, nm_at, Ideal.mulf_def]

/-- The masked mean of channel `d`. -/
theorem mean_at (d : Fin 256) : val_main_v7 (F := Ideal) x0 x1 (Cert.MBN.ixC d) = Cert.MBN.mean x0 (Cert.MBN.nmOf x1) d := by
  rw [val_main_v7_apply, sx_at, val_main_v6_apply, cnt_at, Ideal.hostDivf_def]
  rfl

/-- The mean, broadcast back over batches and pixels (first use: inside the variance). -/
theorem mean9_at (b : Fin 32) (d : Fin 256) (h w : Fin 64) :
    val_main_v9 (F := Ideal) x0 x1 (Cert.MBN.ixX b d h w) = Cert.MBN.mean x0 (Cert.MBN.nmOf x1) d := by
  rw [val_main_v9_apply, idx_v9_at, val_main_v8_apply, idx_v8_at, mean_at]

/-- The mean, broadcast back over batches and pixels (second use: inside the result). -/
theorem mean23_at (b : Fin 32) (d : Fin 256) (h w : Fin 64) :
    val_main_v23 (F := Ideal) x0 x1 (Cert.MBN.ixX b d h w) = Cert.MBN.mean x0 (Cert.MBN.nmOf x1) d := by
  rw [val_main_v23_apply, idx_v23_at, val_main_v8_apply, idx_v8_at, mean_at]

/-- The masked sum of squared deviations of channel `d`. -/
theorem rsq_at (d : Fin 256) : val_main_v14 (F := Ideal) x0 x1 (Cert.MBN.ixC d) = Cert.MBN.rsq x0 (Cert.MBN.nmOf x1) d := by
  unfold val_main_v14
  rw [reduceAdd_channel _ (val_main_cst_1 (F := Ideal)) _ _ ((val_main_cst_1_apply _).trans Ideal.ofBits_zero_f32)]
  unfold Cert.MBN.rsq
  refine Finset.sum_congr rfl fun b _ => Finset.sum_congr rfl fun h _ => Finset.sum_congr rfl fun w _ => ?_
  rw [val_main_v13_apply, val_main_v11_apply, val_main_v10_apply, mean9_at, val_main_v12_apply, idx_v12_at, nm_at,
    Ideal.mulf_def, Ideal.mulf_def, Ideal.subf_def]

/-- The variance of channel `d`. -/
theorem rvar_at (d : Fin 256) : val_main_v16 (F := Ideal) x0 x1 (Cert.MBN.ixC d) = Cert.MBN.rvar x0 (Cert.MBN.nmOf x1) d := by
  rw [val_main_v16_apply, rsq_at, val_main_v15_apply, cnt_at, Ideal.hostDivf_def]
  rfl

/-- The root of the variance plus ε. -/
theorem root_at (d : Fin 256) :
    val_main_v20 (F := Ideal) x0 x1 (Cert.MBN.ixC d) = Ideal.sqrt (Cert.MBN.rvar x0 (Cert.MBN.nmOf x1) d + Cert.MBN.eps) := by
  rw [val_main_v20_apply, val_main_v19_apply, rvar_at, val_main_v18_apply, val_main_cst_2_apply, Ideal.ofBits_def,
    Ideal.addf_def, Ideal.hostUnary_sqrt_def]
  rfl

/-- The factor of channel `d`. -/
theorem rinv_at (d : Fin 256) :
    val_main_v22 (F := Ideal) x0 x1 x2 (ixR d) = Cert.MBN.rinv x0 (Cert.MBN.nmOf x1) x2 d := by
  rw [val_main_v22_apply, val_main_v17_apply, idx_v17_at, val_main_v21_apply, idx_v21_at, root_at, Ideal.hostDivf_def]
  rfl

/-- The normalised value at a kept pixel. -/
theorem rval_at (b : Fin 32) (d : Fin 256) (h w : Fin 64) :
    val_main_v29 (F := Ideal) x0 x1 x2 x3 (Cert.MBN.ixX b d h w)
      = Cert.MBN.Rval x0 (Cert.MBN.nmOf x1) x2 x3 b d h w := by
  rw [val_main_v29_apply, val_main_v26_apply, val_main_v24_apply, mean23_at, val_main_v25_apply, idx_v25_at, rinv_at,
    val_main_v28_apply, idx_v28_at, val_main_v27_apply, idx_v27_at, Ideal.addf_def, Ideal.mulf_def, Ideal.subf_def]
  rfl

/-- The reference's result at an index: the datum where the pixel is excluded, the normalised value where it is kept. -/
theorem ref_apply (x0 : FVec Ideal Cert.ReferenceIdeal.S32x256x64x64 .f32) (x1 : IVec Cert.ReferenceIdeal.S32x1x64x64 1) (x2 x3 : FVec Ideal Cert.ReferenceIdeal.S256 .f32)
    (b : Fin 32) (d : Fin 256) (h w : Fin 64) :
    Cert.ReferenceIdeal.Read.val_main_v30 (F := Ideal) x0 x1 x2 x3 (Cert.MBN.ixX b d h w)
      = Scalar.select (x1 (Cert.MBN.ixM b h w)) (x0 (Cert.MBN.ixX b d h w)) (Cert.MBN.Rval x0 (Cert.MBN.nmOf x1) x2 x3 b d h w) := by
  rw [val_main_v30_apply, val_main_call0_v0_apply, idx_call0_at, rval_at]

end Cert.ReferenceIdeal.RefValue

end
-- ==== Proof.Bridge.lean ====
/-
  The two ways of computing a masked batch normalisation agree on the extended reals.

  Where a pixel is masked out (`nm = 0`) the kernel's blend `x + 0 · (…)` is `x`, whatever the bracket is,
  because zero times any extended real is zero.

  Where a pixel is kept (`nm = 1`) and the data, scale and offset are real numbers, every quantity in sight is a
  real number: the count of kept pixels is a real number at least one, so the mean and both variances are honest
  quotients; the two variances are the same real number, because
  `Σ (x - μ)² n = Σ x² n - 2 μ Σ x n + μ² Σ n` and `μ = Σ x n / Σ n`; that number is not negative (it is a sum
  of squares with weights that are not negative, over a positive count), so adding the positive `ε` gives a positive
  radicand, its root is a positive real, and the factor `g / √(var + ε)` is real.  What is left is the identity
  `x + 1 · (x · (f - 1) + (β - μ f)) = (x - μ) f + β` of real numbers.
-/
import proofs.«115558_j17076789969318_1_alg».proof.Proof.Spec
import Idealize.ShloMosaic.Lib.IdealHost
import Mathlib.Algebra.Order.BigOperators.Group.Finset
import Mathlib.Tactic.Ring
import Mathlib.Tactic.FieldSimp
import Mathlib.Tactic.Linarith

noncomputable section

namespace Cert.MBN

open Idealize.ShloMosaic Idealize.ShloMosaic.ValueIdx

/-! ### The keep-mask takes the values 0 and 1 -/

theorem nmOf_of_set (mk : SM.Idx → BitVec 1) (j : SM.Idx) (h : mk j = 1#1) : nmOf mk j = 0 := by
  unfold nmOf; rw [h]; simp

theorem nmOf_of_clear (mk : SM.Idx → BitVec 1) (j : SM.Idx) (h : ¬ mk j = 1#1) : nmOf mk j = 1 := by
  have h0 : mk j = 0#1 := by
    rcases BitVec.eq_zero_or_eq_one (mk j) with h' | h'
    · exact h'
    · exact absurd h' h
  unfold nmOf; rw [h0]; simp

theorem nmOf_01 (mk : SM.Idx → BitVec 1) (j : SM.Idx) : nmOf mk j = 0 ∨ nmOf mk j = 1 := by
  by_cases h : mk j = 1#1
  · exact Or.inl (nmOf_of_set mk j h)
  · exact Or.inr (nmOf_of_clear mk j h)

/-! ### A masked pixel keeps its value -/

theorem bridge_masked (x : SX.Idx → EReal) (nm : SM.Idx → EReal) (g be : SC.Idx → EReal) (b : Fin 32) (d : Fin 256)
    (h w : Fin 64) (h0 : nm (ixM b h w) = 0) : Kval x nm g be b d h w = x (ixX b d h w) := by
  unfold Kval; rw [h0, zero_mul, add_zero]

/-! ### The two literals -/

/-- The literal `one` is the number one. -/
theorem one_eq : one = 1 := by
  unfold one; exact Ideal.ofBits_one_f32

/-- The literal `ε` is a positive real number. -/
theorem eps_real : ∃ r : ℝ, 0 < r ∧ eps = (r : EReal) := by
  unfold eps
  simp [Ideal.ofBits, Ideal.ieee, -EReal.coe_mul]

/-! ### Real sums inside the extended reals -/

/-- The inclusion of the reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same for the sum over batch, row and column. -/
theorem coe_sum3 (F : Fin 32 → Fin 64 → Fin 64 → ℝ) :
    ((∑ b : Fin 32, ∑ h : Fin 64, ∑ w : Fin 64, F b h w : ℝ) : EReal)
      = ∑ b : Fin 32, ∑ h : Fin 64, ∑ w : Fin 64, (F b h w : EReal) := by
  simp only [coe_sum]

/-! ### The real counterparts of the sums -/

def cntR (nr : SM.Idx → ℝ) : ℝ := ∑ b : Fin 32, ∑ h : Fin 64, ∑ w : Fin 64, nr (ixM b h w)
def sxR (xr : SX.Idx → ℝ) (nr : SM.Idx → ℝ) (d : Fin 256) : ℝ :=
  ∑ b : Fin 32, ∑ h : Fin 64, ∑ w : Fin 64, xr (ixX b d h w) * nr (ixM b h w)
def sqR (xr : SX.Idx → ℝ) (nr : SM.Idx → ℝ) (d : Fin 256) : ℝ :=
  ∑ b : Fin 32, ∑ h : Fin 64, ∑ w : Fin 64, xr (ixX b d h w) * (xr (ixX b d h w) * nr (ixM b h w))
def rsqR (xr : SX.Idx → ℝ) (nr : SM.Idx → ℝ) (d : Fin 256) (μ : ℝ) : ℝ :=
  ∑ b : Fin 32, ∑ h : Fin 64, ∑ w : Fin 64, ((xr (ixX b d h w) - μ) * (xr (ixX b d h w) - μ)) * nr (ixM b h w)

variable (xr : SX.Idx → ℝ) (nr : SM.Idx → ℝ) (gr br : SC.Idx → ℝ)

theorem cnt_coe : cnt (fun j => (nr j : EReal)) = (cntR nr : EReal) := by
  unfold cnt cntR; rw [coe_sum3]

theorem sx_coe (d : Fin 256) :
    sx (fun i => (xr i : EReal)) (fun j => (nr j : EReal)) d = (sxR xr nr d : EReal) := by
  unfold sx sxR; rw [coe_sum3]; simp only [EReal.coe_mul]

theorem sq_coe (d : Fin 256) :
    sq (fun i => (xr i : EReal)) (fun j => (nr j : EReal)) d = (sqR xr nr d : EReal) := by
  unfold sq sqR; rw [coe_sum3]; simp only [EReal.coe_mul]

/-- One kept pixel makes the count at least one. -/
theorem cntR_ge_one (hn0 : ∀ j, 0 ≤ nr j) (b : Fin 32) (h w : Fin 64) (h1 : nr (ixM b h w) = 1) : 1 ≤ cntR nr := by
  unfold cntR
  calc (1 : ℝ) = nr (ixM b h w) := h1.symm
    _ ≤ ∑ w' : Fin 64, nr (ixM b h w') :=
        Finset.single_le_sum (f := fun w' : Fin 64 => nr (ixM b h w')) (fun _ _ => hn0 _) (Finset.mem_univ w)
    _ ≤ ∑ h' : Fin 64, ∑ w' : Fin 64, nr (ixM b h' w') :=
        Finset.single_le_sum (f := fun h' : Fin 64 => ∑ w' : Fin 64, nr (ixM b h' w'))
          (fun _ _ => Finset.sum_nonneg (fun _ _ => hn0 _)) (Finset.mem_univ h)
    _ ≤ ∑ b' : Fin 32, ∑ h' : Fin 64, ∑ w' : Fin 64, nr (ixM b' h' w') :=
        Finset.single_le_sum (f := fun b' : Fin 32 => ∑ h' : Fin 64, ∑ w' : Fin 64, nr (ixM b' h' w'))
          (fun _ _ => Finset.sum_nonneg (fun _ _ => Finset.sum_nonneg (fun _ _ => hn0 _))) (Finset.mem_univ b)

/-! ### Mean and variances are real -/

theorem mean_coe (d : Fin 256) (hc : cntR nr ≠ 0) :
    mean (fun i => (xr i : EReal)) (fun j => (nr j : EReal)) d = ((sxR xr nr d / cntR nr : ℝ) : EReal) := by
  unfold mean; rw [sx_coe, cnt_coe, Ideal.div_coe hc, ← EReal.coe_mul, mul_one_div]

theorem kvar_coe (d : Fin 256) (hc : cntR nr ≠ 0) :
    kvar (fun i => (xr i : EReal)) (fun j => (nr j : EReal)) d
      = ((sqR xr nr d / cntR nr - sxR xr nr d / cntR nr * (sxR xr nr d / cntR nr) : ℝ) : EReal) := by
  unfold kvar
  rw [mean_coe xr nr d hc, sq_coe, cnt_coe, Ideal.div_coe hc, ← EReal.coe_mul, ← EReal.coe_mul, ← EReal.coe_sub,
    mul_one_div]

theorem rsq_coe (d : Fin 256) (μ : ℝ)
    (hμ : mean (fun i => (xr i : EReal)) (fun j => (nr j : EReal)) d = (μ : EReal)) :
    rsq (fun i => (xr i : EReal)) (fun j => (nr j : EReal)) d = (rsqR xr nr d μ : EReal) := by
  unfold rsq rsqR; rw [hμ, coe_sum3]; simp only [EReal.coe_mul, EReal.coe_sub]

theorem rvar_coe (d : Fin 256) (hc : cntR nr ≠ 0) :
    rvar (fun i => (xr i : EReal)) (fun j => (nr j : EReal)) d
      = ((rsqR xr nr d (sxR xr nr d / cntR nr) / cntR nr : ℝ) : EReal) := by
  unfold rvar
  rw [rsq_coe xr nr d _ (mean_coe xr nr d hc), cnt_coe, Ideal.div_coe hc, ← EReal.coe_mul, mul_one_div]

/-! ### The two variances are one number, and it is not negative -/

/-- The masked sum of squared deviations from any `μ`, expanded. -/
theorem rsqR_expand (d : Fin 256) (μ : ℝ) :
    rsqR xr nr d μ = sqR xr nr d - 2 * μ * sxR xr nr d + μ * μ * cntR nr := by
  have e : rsqR xr nr d μ = ∑ b : Fin 32, ∑ h : Fin 64, ∑ w : Fin 64,
      (xr (ixX b d h w) * (xr (ixX b d h w) * nr (ixM b h w)) - 2 * μ * (xr (ixX b d h w) * nr (ixM b h w))
        + μ * μ * nr (ixM b h w)) := by
    unfold rsqR
    exact Finset.sum_congr rfl fun _ _ => Finset.sum_congr rfl fun _ _ => Finset.sum_congr rfl fun _ _ => by ring
  rw [e]; unfold sqR sxR cntR
  simp only [Finset.sum_add_distrib, Finset.sum_sub_distrib, ← Finset.mul_sum]

theorem var_eq (d : Fin 256) (hc : cntR nr ≠ 0) :
    sqR xr nr d / cntR nr - sxR xr nr d / cntR nr * (sxR xr nr d / cntR nr)
      = rsqR xr nr d (sxR xr nr d / cntR nr) / cntR nr := by
  rw [rsqR_expand]; field_simp; ring

theorem var_nonneg (d : Fin 256) (μ : ℝ) (hn0 : ∀ j, 0 ≤ nr j) : 0 ≤ rsqR xr nr d μ / cntR nr := by
  apply div_nonneg
  · unfold rsqR
    exact Finset.sum_nonneg fun _ _ => Finset.sum_nonneg fun _ _ => Finset.sum_nonneg fun _ _ =>
      mul_nonneg (mul_self_nonneg _) (hn0 _)
  · unfold cntR
    exact Finset.sum_nonneg fun _ _ => Finset.sum_nonneg fun _ _ => Finset.sum_nonneg fun _ _ => hn0 _

/-! ### The factor is real -/

/-- A real scale over the root of a variance that is not negative plus a positive `ε`. -/
theorem inv_coe (gv v e : ℝ) (hv : 0 ≤ v) (he : 0 < e) :
    Ideal.div (gv : EReal) (Ideal.sqrt ((v : EReal) + (e : EReal))) = ((gv / Real.sqrt (v + e) : ℝ) : EReal) := by
  have hpos : 0 < v + e := by linarith
  have hs : 0 < Real.sqrt (v + e) := Real.sqrt_pos.mpr hpos
  rw [← EReal.coe_add, Ideal.sqrt_coe, if_neg (not_lt.mpr hpos.le), Ideal.div_coe hs.ne', ← EReal.coe_mul, mul_one_div]

/-! ### A kept pixel: the real case, then the stated one -/

theorem bridge_kept_real (hn0 : ∀ j, 0 ≤ nr j) (b : Fin 32) (d : Fin 256) (h w : Fin 64)
    (h1 : nr (ixM b h w) = 1) :
    Kval (fun i => (xr i : EReal)) (fun j => (nr j : EReal)) (fun i => (gr i : EReal)) (fun i => (br i : EReal)) b d h w
      = Rval (fun i => (xr i : EReal)) (fun j => (nr j : EReal)) (fun i => (gr i : EReal)) (fun i => (br i : EReal))
          b d h w := by
  have hc : cntR nr ≠ 0 := by
    have := cntR_ge_one nr hn0 b h w h1
    intro h0; rw [h0] at this; linarith
  obtain ⟨e, he, hee⟩ := eps_real
  have hμ := mean_coe xr nr d hc
  have hv0 := var_nonneg xr nr d (sxR xr nr d / cntR nr) hn0
  have hki : kinv (fun i => (xr i : EReal)) (fun j => (nr j : EReal)) (fun i => (gr i : EReal)) d
      = ((gr (ixC d) / Real.sqrt (rsqR xr nr d (sxR xr nr d / cntR nr) / cntR nr + e) : ℝ) : EReal) := by
    unfold kinv; rw [kvar_coe xr nr d hc, var_eq xr nr d hc, hee]; exact inv_coe _ _ _ hv0 he
  have hri : rinv (fun i => (xr i : EReal)) (fun j => (nr j : EReal)) (fun i => (gr i : EReal)) d
      = ((gr (ixC d) / Real.sqrt (rsqR xr nr d (sxR xr nr d / cntR nr) / cntR nr + e) : ℝ) : EReal) := by
    unfold rinv; rw [rvar_coe xr nr d hc, hee]; exact inv_coe _ _ _ hv0 he
  unfold Kval Rval kshift
  rw [hki, hri, hμ, one_eq, ← EReal.coe_one]
  beta_reduce
  rw [h1]
  have key : ∀ x f β μ : ℝ, x + 1 * (x * (f - 1) + (β - μ * f)) = (x - μ) * f + β := fun x f β μ => by ring
  exact_mod_cast key _ _ _ _

theorem bridge_kept (x : SX.Idx → EReal) (nm : SM.Idx → EReal) (g be : SC.Idx → EReal)
    (hx : ∀ i, Fin' (x i)) (hg : ∀ i, Fin' (g i)) (hbe : ∀ i, Fin' (be i)) (hnm : ∀ j, nm j = 0 ∨ nm j = 1)
    (b : Fin 32) (d : Fin 256) (h w : Fin 64) (h1 : nm (ixM b h w) = 1) :
    Kval x nm g be b d h w = Rval x nm g be b d h w := by
  have hx' : ∀ i, ∃ r : ℝ, x i = (r : EReal) := hx
  have hg' : ∀ i, ∃ r : ℝ, g i = (r : EReal) := hg
  have hbe' : ∀ i, ∃ r : ℝ, be i = (r : EReal) := hbe
  have hnm' : ∀ j, ∃ r : ℝ, nm j = (r : EReal) ∧ 0 ≤ r := fun j => by
    rcases hnm j with h' | h'
    · exact ⟨0, by rw [h', EReal.coe_zero], le_refl _⟩
    · exact ⟨1, by rw [h', EReal.coe_one], zero_le_one⟩
  choose xr hxr using hx'
  choose gr hgr using hg'
  choose br hbr using hbe'
  choose nr hnr hn0 using hnm'
  obtain rfl : x = fun i => (xr i : EReal) := funext hxr
  obtain rfl : g = fun i => (gr i : EReal) := funext hgr
  obtain rfl : be = fun i => (br i : EReal) := funext hbr
  obtain rfl : nm = fun j => (nr j : EReal) := funext hnr
  have h1' : nr (ixM b h w) = 1 := by
    have h2 : (nr (ixM b h w) : EReal) = 1 := h1
    exact_mod_cast h2
  exact bridge_kept_real xr nr gr br hn0 b d h w h1'

end Cert.MBN

end
-- ==== Proof.Finite.lean ====
/-
  From "each absolute value lies strictly below +∞" to "each entry is a real number".

  The predicate on the inputs is a conjunction of three statements, one per float array (the data, the scale,
  the offset): every entry v satisfies |v| < +∞, where |v| is max v (-v) on the extended reals and the
  comparison is the order's. An extended real is -∞, a real, or +∞; at the two infinities |v| is +∞, which is
  not below itself; so only the reals pass.
-/
import proofs.«115558_j17076789969318_1_alg».proof.Defs
import proofs.«115558_j17076789969318_1_alg».proof.Proof.Gen.Pre_finite_inputs
import proofs.«115558_j17076789969318_1_alg».proof.Proof.Spec
import Idealize.ShloMosaic.Lib.ReduceAll
import Idealize.ShloMosaic.Lib.ValueIdx
import Mathlib.Data.EReal.Basic

noncomputable section

namespace Cert.MBN

open Idealize.ShloMosaic Idealize.ShloMosaic.ValueIdx

namespace Finite

/-- The 32-bit pattern with sign 0, all exponent bits set and fraction 0 denotes +∞. -/
theorem inf_pattern : Ideal.ofBits .f32 0x7F800000#32 = (⊤ : EReal) := by
  simp [Ideal.ofBits, Ideal.ieee]

/-- An extended real whose absolute value lies strictly below +∞ is a real number:
    at -∞ and at +∞ the absolute value is +∞ itself. -/
theorem fin_of_abs_lt_top (v : EReal) (h : max v (-v) < ⊤) : Fin' v := by
  induction v using EReal.rec with
  | bot => simp at h
  | coe r => exact ⟨r, rfl⟩
  | top => simp at h

/-- The comparison "|v| < the value of the +∞ pattern" being the bit 1 says that v is a real number. -/
theorem fin_of_bit (v : EReal)
    (h : Ideal.cmp .olt (max v (-v)) (Ideal.ofBits .f32 0x7F800000#32) = 1#1) : Fin' v := by
  rw [inf_pattern] at h
  refine fin_of_abs_lt_top v ?_
  by_contra hn
  simp [Ideal.cmp, hn] at h

end Finite

/-- The predicate on the inputs being 1 says that every entry of the data, of the scale and of the offset is a
    real number. The predicate is the conjunction of three "for all entries" statements; each is a fold by
    "and" from 1 over the one-bit comparisons, so it is 1 only when every comparison is. -/
theorem finite_of_fn [Cert.Pre_finite_inputs.Facts] (x : FVec Ideal Cert.Pre_finite_inputs.S32x256x64x64 .f32)
    (mk : IVec Cert.Pre_finite_inputs.S32x1x64x64 1) (g be : FVec Ideal Cert.Pre_finite_inputs.S256 .f32)
    (h : Cert.Pre_finite_inputs.fn (F := Ideal) x mk g be = (fun _ => 1#1)) :
    (∀ i, Cert.MBN.Fin' (x i)) ∧ (∀ i, Cert.MBN.Fin' (g i)) ∧ (∀ i, Cert.MBN.Fin' (be i)) := by
  -- the result shape of a reduction over every axis has exactly one index
  haveI : Subsingleton Cert.Pre_finite_inputs.S_.Idx := ⟨fun a b => funext fun d => d.elim0⟩
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact Finite.fin_of_bit (x i) (Host.reduce_andi_all _ _ _ _ _ h1 i)
  · exact Finite.fin_of_bit (g i) (Host.reduce_andi_all _ _ _ _ _ h2 i)
  · exact Finite.fin_of_bit (be i) (Host.reduce_andi_all _ _ _ _ _ h3 i)

end Cert.MBN

end
-- ==== Proof.lean ====
/-
  Masked batch normalisation: the Pallas program (a statistics kernel over the 32 batch slices, a few per-channel
  host operations, an apply kernel over the slices) against its jnp reference, over the extended reals.

  Frames: the program at both instances runs as four items — host, region, host, region — each region's loop
  discharged by its body's triple (Proof/K, Proof/KI); the reference is host operations only.  The idealisation
  rewrote nothing, so `preserves` is trivial.  Value: with `nm = 1 − mask`, `cnt = Σ nm`, `μ = Σ x·nm / cnt`,
  the kernel writes `x + nm·(x·(f − 1) + (β − μ f))` with `f = γ / √(Σ x²·nm / cnt − μ² + ε)`, the reference
  `(x − μ)·f' + β` where the pixel is kept and `x` elsewhere, with `f' = γ / √(Σ (x − μ)²·nm / cnt + ε)`.  Where
  `nm = 0` both are `x` (a product with 0 is 0 on the extended reals).  Where `nm = 1` the count is at least 1, every
  quantity is a real number because the inputs are finite, the two variances are the same real, and the two
  expressions agree by ring arithmetic (Proof/Bridge).
-/
import proofs.«115558_j17076789969318_1_alg».proof.Defs
import proofs.«115558_j17076789969318_1_alg».proof.Proof.Gen.Kernel
import proofs.«115558_j17076789969318_1_alg».proof.Proof.Gen.KernelIdeal
import proofs.«115558_j17076789969318_1_alg».proof.Proof.Gen.ReferenceIdeal
import proofs.«115558_j17076789969318_1_alg».proof.Proof.Gen.Pre_finite_inputs
import proofs.«115558_j17076789969318_1_alg».proof.Proof.Gen.ReferenceIdeal.Run
import proofs.«115558_j17076789969318_1_alg».proof.Proof.K.Run
import proofs.«115558_j17076789969318_1_alg».proof.Proof.KI.Run
import proofs.«115558_j17076789969318_1_alg».proof.Proof.KI.KernelValue
import proofs.«115558_j17076789969318_1_alg».proof.Proof.RefVal
import proofs.«115558_j17076789969318_1_alg».proof.Proof.Bridge
import proofs.«115558_j17076789969318_1_alg».proof.Proof.Finite

noncomputable section

namespace Cert.Proof

open Idealize.ShloMosaic Idealize.ShloMosaic.TcCoe Idealize.ShloMosaic.ValueIdx Idealize.SL.Sem

theorem frame_k : Cert.frame_Kernel := fun m ρ _ => Cert.Kernel.H.frame (F := Bits) m ρ
theorem frame_ki : Cert.frame_KernelIdeal := fun m ρ _ => Cert.KernelIdeal.H.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two result arrays agree entry by entry: the reference's entry is `x` under a set exclusion bit and the
    reference form otherwise, the kernel's entry is the kernel form, and the two forms agree in both cases. -/
theorem algebraic : Cert.algebraic_KernelIdeal_ReferenceIdeal := by
  intro m ρ m' ρ' hpre hagree
  refine ⟨fun c => Cert.KernelIdeal.H.W4 m c (Proc.devRef .tc Cert.KernelIdeal.main_v17), Cert.KernelIdeal.H.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  obtain ⟨hx, hg, hbe⟩ := Cert.MBN.finite_of_fn _ _ _ _ (hpre c)
  rw [Cert.ReferenceIdeal.Read.val_main_v30_eq]
  funext i
  obtain ⟨b, d, h, w, rfl⟩ : ∃ (b : Fin 32) (d : Fin 256) (h w : Fin 64), i = ix4 b d h w := ⟨i 0, i 1, i 2, i 3, eq_ix4 i⟩
  refine (Cert.ReferenceIdeal.RefValue.ref_apply _ _ _ _ b d h w).trans ?_
  refine Eq.trans ?_ (Cert.KernelIdeal.H.kernel_apply m c b d h w).symm
  by_cases hm : Cert.KernelIdeal.H.kM m c (Cert.MBN.ixM b h w) = 1#1
  · rw [show (m ((c.tc : Thread Cert.KernelIdeal.nD Cert.KernelIdeal.τ).loc Cert.KernelIdeal.main_arg1) : Cert.MBN.SM.Idx → BitVec 1) (Cert.MBN.ixM b h w) = 1#1 from hm, select_one]
    exact (Cert.MBN.bridge_masked _ _ _ _ b d h w (Cert.MBN.nmOf_of_set _ _ hm)).symm
  · rw [show (m ((c.tc : Thread Cert.KernelIdeal.nD Cert.KernelIdeal.τ).loc Cert.KernelIdeal.main_arg1) : Cert.MBN.SM.Idx → BitVec 1) (Cert.MBN.ixM b h w) = 0#1 from eq_zero_of_ne_one hm, select_zero]
    exact (Cert.MBN.bridge_kept _ _ _ _ hx hg hbe (Cert.MBN.nmOf_01 _) b d h w (Cert.MBN.nmOf_of_clear _ _ hm)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
